-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x40, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x40, .f32⟩
  | .hbm, ⟨75, _⟩ => ⟨S850000x1, .f32⟩
  | .hbm, ⟨76, _⟩ => ⟨S850000x40, .f32⟩
  | .hbm, ⟨77, _⟩ => ⟨S850000x40, .f32⟩
  | .hbm, ⟨78, _⟩ => ⟨S_, .f32⟩
  | .hbm, ⟨79, _⟩ => ⟨S50000x40, .f32⟩
  | .hbm, ⟨80, _⟩ => ⟨S850000x1, .i32⟩
  | .hbm, ⟨81, _⟩ => ⟨S50000x40, .f32⟩
  | .hbm, ⟨82, _⟩ => ⟨S1x40, .f32⟩
  | .hbm, ⟨83, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x40, .f32⟩
  | .hbm, ⟨96, _⟩ => ⟨S50000x40, .f32⟩
  | .hbm, ⟨97, _⟩ => ⟨S50000x40, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x40, .f32⟩
  | .hbm, ⟨103, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.HostStretches.lean ====
/-
  The kernel program's host operations, read at the buffers later steps use (at any float family).

  Between the pallas_calls the kernel program runs the reference's own host operations. Before the first call: the
  edge lists with the self loops appended, and the edges' normalisation weights — the reference's stages of the edge
  array. After a feature transform: its rows gathered along the edges' sources, scaled by the weights, and summed into
  the edges' destinations — one function `aggregate` of the edge array and the transform's output, the same function
  the reference applies to its own transform (`v43_eq`, `v61_eq`); and the layer's bias recast as a row. A buffer no
  operation and no call writes keeps its contents from boundary to boundary. Nothing here depends on what the
  float operations are.
-/
import proofs.«167320_j6236292514024_1_alg».proof.Proof.Gen.KernelIdeal.Frame
import proofs.«167320_j6236292514024_1_alg».proof.Proof.RefStages

set_option maxRecDepth 16384

noncomputable section

namespace Cert.KernelIdeal.Stretches

open Cert.KernelIdeal Cert.KernelIdeal.Gen Idealize.ShloMosaic Idealize.ShloMosaic.TcCoe Idealize.SL.Sem
open Idealize.ShloMosaic.StableHlo
open Cert.ReferenceIdeal.ReadP

variable {F : FTy → Type} [FloatOps F]

/-! ## The gather–scale–sum of a layer, as the reference spells it -/

/-- The first layer's: rows of `h` gathered at the sources, scaled by the edge weights, summed into the destinations. -/
def aggregate128 (x1 : (⟨Cert.ReferenceIdeal.S2x800000, .i32⟩ : BufTy).Contents (Elt F))
    (h : (⟨Cert.ReferenceIdeal.S50000x128, .f32⟩ : BufTy).Contents (Elt F)) :
    (⟨Cert.ReferenceIdeal.S50000x128, .f32⟩ : BufTy).Contents (Elt F) :=
  Host.scatterAdd Cert.ReferenceIdeal.scatter_S50000x128_S850000x1_S850000x128_1_0_0_1 (val_main_v41 (F := F)) (val_main_v42 (F := F) x1)
    (mulf (Host.gather Cert.ReferenceIdeal.gather_S50000x128_S850000x1_S850000x128_1_0_n_n_0_1_1128 h (val_main_v36 (F := F) x1))
      (val_main_v39 (F := F) x1))

/-- The second layer's, over 40 columns. -/
def aggregate40 (x1 : (⟨Cert.ReferenceIdeal.S2x800000, .i32⟩ : BufTy).Contents (Elt F))
    (h : (⟨Cert.ReferenceIdeal.S50000x40, .f32⟩ : BufTy).Contents (Elt F)) :
    (⟨Cert.ReferenceIdeal.S50000x40, .f32⟩ : BufTy).Contents (Elt F) :=
  Host.scatterAdd Cert.ReferenceIdeal.scatter_S50000x40_S850000x1_S850000x40_1_0_0_1 (val_main_v59 (F := F)) (val_main_v60 (F := F) x1)
    (mulf (Host.gather Cert.ReferenceIdeal.gather_S50000x40_S850000x1_S850000x40_1_0_n_n_0_1_140 h (val_main_v54 (F := F) x1))
      (val_main_v57 (F := F) x1))

/-- The reference's first summed messages are that function of its first transform. -/
theorem v43_eq (x0 : (⟨Cert.ReferenceIdeal.S50000x128, .f32⟩ : BufTy).Contents (Elt F))
    (x1 : (⟨Cert.ReferenceIdeal.S2x800000, .i32⟩ : BufTy).Contents (Elt F))
    (x2 : (⟨Cert.ReferenceIdeal.S128x128, .f32⟩ : BufTy).Contents (Elt F)) :
    val_main_v43 (F := F) x0 x1 x2 = aggregate128 x1 (val_main_v30 (F := F) x0 x2) := rfl

/-- The reference's second summed messages are that function of its second transform. -/
theorem v61_eq (x0 : (⟨Cert.ReferenceIdeal.S50000x128, .f32⟩ : BufTy).Contents (Elt F))
    (x1 : (⟨Cert.ReferenceIdeal.S2x800000, .i32⟩ : BufTy).Contents (Elt F))
    (x2 : (⟨Cert.ReferenceIdeal.S128x128, .f32⟩ : BufTy).Contents (Elt F))
    (x3 : (⟨Cert.ReferenceIdeal.S128, .f32⟩ : BufTy).Contents (Elt F))
    (x4 : (⟨Cert.ReferenceIdeal.S128x40, .f32⟩ : BufTy).Contents (Elt F)) :
    val_main_v61 (F := F) x0 x1 x2 x3 x4 = aggregate40 x1 (val_main_v48 (F := F) x0 x1 x2 x3 x4) := rfl

variable (m : (ℓ : Loc nD τ sig) → Buf (Elt F) ℓ) (ρ : Dev nD → PrngReg)

/-- The argument arrays as launched. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)

/-! ## Before the first call: the arguments as launched, the edge lists, the normalisation -/

theorem W3_arg0 (c : Dev nD) : W3 m ρ c (Proc.devRef .tc main_arg0) = A0 m c := by
  show StableHlo.after hostOps0_2 (StableHlo.after hostOps0_1 (StableHlo.after hostOps0 (W0 m ρ c))) (Proc.devRef .tc main_arg0) = _
  simp only [hostOps0, hostOps0_1, hostOps0_2]
  after_results
  all_goals rfl
theorem W3_arg2 (c : Dev nD) : W3 m ρ c (Proc.devRef .tc main_arg2) = A2 m c := by
  show StableHlo.after hostOps0_2 (StableHlo.after hostOps0_1 (StableHlo.after hostOps0 (W0 m ρ c))) (Proc.devRef .tc main_arg2) = _
  simp only [hostOps0, hostOps0_1, hostOps0_2]
  after_results
  all_goals rfl
theorem W3_arg3 (c : Dev nD) : W3 m ρ c (Proc.devRef .tc main_arg3) = A3 m c := by
  show StableHlo.after hostOps0_2 (StableHlo.after hostOps0_1 (StableHlo.after hostOps0 (W0 m ρ c))) (Proc.devRef .tc main_arg3) = _
  simp only [hostOps0, hostOps0_1, hostOps0_2]
  after_results
  all_goals rfl
theorem W3_arg4 (c : Dev nD) : W3 m ρ c (Proc.devRef .tc main_arg4) = A4 m c := by
  show StableHlo.after hostOps0_2 (StableHlo.after hostOps0_1 (StableHlo.after hostOps0 (W0 m ρ c))) (Proc.devRef .tc main_arg4) = _
  simp only [hostOps0, hostOps0_1, hostOps0_2]
  after_results
  all_goals rfl
theorem W3_arg5 (c : Dev nD) : W3 m ρ c (Proc.devRef .tc main_arg5) = A5 m c := by
  show StableHlo.after hostOps0_2 (StableHlo.after hostOps0_1 (StableHlo.after hostOps0 (W0 m ρ c))) (Proc.devRef .tc main_arg5) = _
  simp only [hostOps0, hostOps0_1, hostOps0_2]
  after_results
  all_goals rfl

set_option maxHeartbeats 4000000 in
/-- The source nodes with the self loops appended. -/
theorem W3_v5 (c : Dev nD) : W3 m ρ c (Proc.devRef .tc main_v5) = val_main_v5 (F := F) (A1 m c) := by
  show StableHlo.after hostOps0_2 (StableHlo.after hostOps0_1 (StableHlo.after hostOps0 (W0 m ρ c))) (Proc.devRef .tc main_v5) = _
  simp only [hostOps0, hostOps0_1, hostOps0_2]
  after_results
  all_goals rfl
set_option maxHeartbeats 4000000 in
/-- The destination nodes with the self loops appended. -/
theorem W3_v6 (c : Dev nD) : W3 m ρ c (Proc.devRef .tc main_v6) = val_main_v6 (F := F) (A1 m c) := by
  show StableHlo.after hostOps0_2 (StableHlo.after hostOps0_1 (StableHlo.after hostOps0 (W0 m ρ c))) (Proc.devRef .tc main_v6) = _
  simp only [hostOps0, hostOps0_1, hostOps0_2]
  after_results
  all_goals rfl
set_option maxHeartbeats 4000000 in
/-- The edges' normalisation weights. -/
theorem W3_v29 (c : Dev nD) : W3 m ρ c (Proc.devRef .tc main_v29) = val_main_v29 (F := F) (A1 m c) := by
  show StableHlo.after hostOps0_2 (StableHlo.after hostOps0_1 (StableHlo.after hostOps0 (W0 m ρ c))) (Proc.devRef .tc main_v29) = _
  simp only [hostOps0, hostOps0_1, hostOps0_2]
  after_results
  all_goals (try simp only [TRef.ofBuf, TRef.toBuf, cast_eq])
  all_goals rfl

/-! ## After the first call -/

theorem W4_v5 (c : Dev nD) : W4 m ρ c (Proc.devRef .tc main_v5) = val_main_v5 (F := F) (A1 m c) :=
  (W4_of_ne m ρ c main_v5 (by decide)).trans (W3_v5 m ρ c)
theorem W4_v6 (c : Dev nD) : W4 m ρ c (Proc.devRef .tc main_v6) = val_main_v6 (F := F) (A1 m c) :=
  (W4_of_ne m ρ c main_v6 (by decide)).trans (W3_v6 m ρ c)
theorem W4_v29 (c : Dev nD) : W4 m ρ c (Proc.devRef .tc main_v29) = val_main_v29 (F := F) (A1 m c) :=
  (W4_of_ne m ρ c main_v29 (by decide)).trans (W3_v29 m ρ c)
theorem W4_arg3 (c : Dev nD) : W4 m ρ c (Proc.devRef .tc main_arg3) = A3 m c :=
  (W4_of_ne m ρ c main_arg3 (by decide)).trans (W3_arg3 m ρ c)
theorem W4_arg4 (c : Dev nD) : W4 m ρ c (Proc.devRef .tc main_arg4) = A4 m c :=
  (W4_of_ne m ρ c main_arg4 (by decide)).trans (W3_arg4 m ρ c)
theorem W4_arg5 (c : Dev nD) : W4 m ρ c (Proc.devRef .tc main_arg5) = A5 m c :=
  (W4_of_ne m ρ c main_arg5 (by decide)).trans (W3_arg5 m ρ c)

/-! ## Before the second call: the first layer's summed messages and the bias as a row -/

set_option maxHeartbeats 4000000 in
theorem W5_v43 (c : Dev nD) :
    W5 m ρ c (Proc.devRef .tc main_v43) = aggregate128 (A1 m c) (W4 m ρ c (Proc.devRef .tc main_v30)) := by
  show StableHlo.after hostOps1 (W4 m ρ c) (Proc.devRef .tc main_v43) = _
  simp only [hostOps1]
  after_results
  rw [W4_v5 m ρ c, W4_v6 m ρ c, W4_v29 m ρ c]
  rfl

set_option maxHeartbeats 4000000 in
theorem W5_v44 (c : Dev nD) :
    W5 m ρ c (Proc.devRef .tc main_v44) = shapeCast S1x128 (A3 m c) shapeCasts_S128_S1x128 := by
  show StableHlo.after hostOps1 (W4 m ρ c) (Proc.devRef .tc main_v44) = _
  simp only [hostOps1]
  after_results
  rw [W4_arg3 m ρ c]
  rfl

theorem W5_v5 (c : Dev nD) : W5 m ρ c (Proc.devRef .tc main_v5) = val_main_v5 (F := F) (A1 m c) := by
  show StableHlo.after hostOps1 (W4 m ρ c) (Proc.devRef .tc main_v5) = _
  simp only [hostOps1]
  after_results
  exact W4_v5 m ρ c
theorem W5_v6 (c : Dev nD) : W5 m ρ c (Proc.devRef .tc main_v6) = val_main_v6 (F := F) (A1 m c) := by
  show StableHlo.after hostOps1 (W4 m ρ c) (Proc.devRef .tc main_v6) = _
  simp only [hostOps1]
  after_results
  exact W4_v6 m ρ c
theorem W5_v29 (c : Dev nD) : W5 m ρ c (Proc.devRef .tc main_v29) = val_main_v29 (F := F) (A1 m c) := by
  show StableHlo.after hostOps1 (W4 m ρ c) (Proc.devRef .tc main_v29) = _
  simp only [hostOps1]
  after_results
  exact W4_v29 m ρ c
theorem W5_arg4 (c : Dev nD) : W5 m ρ c (Proc.devRef .tc main_arg4) = A4 m c := by
  show StableHlo.after hostOps1 (W4 m ρ c) (Proc.devRef .tc main_arg4) = _
  simp only [hostOps1]
  after_results
  exact W4_arg4 m ρ c
theorem W5_arg5 (c : Dev nD) : W5 m ρ c (Proc.devRef .tc main_arg5) = A5 m c := by
  show StableHlo.after hostOps1 (W4 m ρ c) (Proc.devRef .tc main_arg5) = _
  simp only [hostOps1]
  after_results
  exact W4_arg5 m ρ c

/-! ## After the second and third calls -/

theorem W6_arg4 (c : Dev nD) : W6 m ρ c (Proc.devRef .tc main_arg4) = A4 m c :=
  (W6_of_ne m ρ c main_arg4 (by decide)).trans (W5_arg4 m ρ c)
theorem W7_v5 (c : Dev nD) : W7 m ρ c (Proc.devRef .tc main_v5) = val_main_v5 (F := F) (A1 m c) :=
  (W7_of_ne m ρ c main_v5 (by decide)).trans ((W6_of_ne m ρ c main_v5 (by decide)).trans (W5_v5 m ρ c))
theorem W7_v6 (c : Dev nD) : W7 m ρ c (Proc.devRef .tc main_v6) = val_main_v6 (F := F) (A1 m c) :=
  (W7_of_ne m ρ c main_v6 (by decide)).trans ((W6_of_ne m ρ c main_v6 (by decide)).trans (W5_v6 m ρ c))
theorem W7_v29 (c : Dev nD) : W7 m ρ c (Proc.devRef .tc main_v29) = val_main_v29 (F := F) (A1 m c) :=
  (W7_of_ne m ρ c main_v29 (by decide)).trans ((W6_of_ne m ρ c main_v29 (by decide)).trans (W5_v29 m ρ c))
theorem W7_arg5 (c : Dev nD) : W7 m ρ c (Proc.devRef .tc main_arg5) = A5 m c :=
  (W7_of_ne m ρ c main_arg5 (by decide)).trans ((W6_of_ne m ρ c main_arg5 (by decide)).trans (W5_arg5 m ρ c))

/-! ## Before the fourth call: the second layer's summed messages and the bias as a row -/

set_option maxHeartbeats 4000000 in
theorem W8_v59 (c : Dev nD) :
    W8 m ρ c (Proc.devRef .tc main_v59) = aggregate40 (A1 m c) (W7 m ρ c (Proc.devRef .tc main_v46)) := by
  show StableHlo.after hostOps3 (W7 m ρ c) (Proc.devRef .tc main_v59) = _
  simp only [hostOps3]
  after_results
  rw [W7_v5 m ρ c, W7_v6 m ρ c, W7_v29 m ρ c]
  rfl

set_option maxHeartbeats 4000000 in
theorem W8_v60 (c : Dev nD) :
    W8 m ρ c (Proc.devRef .tc main_v60) = shapeCast S1x40 (A5 m c) shapeCasts_S40_S1x40 := by
  show StableHlo.after hostOps3 (W7 m ρ c) (Proc.devRef .tc main_v60) = _
  simp only [hostOps3]
  after_results
  rw [W7_arg5 m ρ c]
  rfl

end Cert.KernelIdeal.Stretches

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«167320_j6236292514024_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.Matmul1.lean ====
/-
  What the first pallas_call leaves in its result array.

  The call walks the 50000 rows of its left operand in ten blocks of 5000; at block `t` the body multiplies rows
  5000·t … 5000·t + 4999 of the left operand by the whole right operand into a zero accumulator (the narrowing of
  both operands to bf16 is the identity on the extended reals) and stores the 5000 × 128 product, which is written
  back to the same rows of the result. Entry (p, q) of a block's product is the sum over k of
  left(5000·t + p, k) · right(k, q): that is entry (5000·t + p, q) of the whole product, so after the ten
  write-backs, which tile the result, the array holds the whole product of the two operands as the call found them.
-/
import proofs.«167320_j6236292514024_1_alg».proof.Proof.Gen.KernelIdeal.Frame
import proofs.«167320_j6236292514024_1_alg».proof.Proof.LibRowBlockProduct
import Idealize.ShloMosaic.Lib.Pipeline.Value
import Idealize.ShloMosaic.Lib.ValueIdx

set_option maxRecDepth 16384

noncomputable section

namespace Cert.KernelIdeal.Matmul1

open Cert.KernelIdeal Cert.KernelIdeal.Gen Idealize.ShloMosaic Idealize.ShloMosaic.TcCoe Idealize.SL.Sem
open Idealize.ShloMosaic.ValueIdx Idealize.ShloMosaic.PlainDot Idealize.ShloMosaic.RowBlockProduct
open Idealize.ShloMosaic.Pipeline (Dat)

/-- The body's dimension numbers are the plain ones of [5000, 128] · [128, 128]. -/
theorem plain : IsPlain dot_S5000x128_S128x128_S5000x128_1_0_0_1_n_n := ⟨rfl, rfl, rfl, rfl, rfl, rfl⟩

/-- The stored value at (p, q), for a left block that is rows o … o + 4999 of `A` and a right block that is `B`:
    the whole product at (o + p, q). -/
theorem pay_apply (A : S50000x128.Idx → EReal) (B : S128x128.Idx → EReal)
    (x0 : Vec Ideal S5000x128 .f32) (x1 : Vec Ideal S128x128 .f32) (o : ℕ) (ho : o + 5000 ≤ 50000)
    (hx0 : ∀ (p : Fin 5000) (k : Fin 128), x0 (ix2 p k) = A (ix2 ⟨o + p.val, by have := p.isLt; omega⟩ k))
    (hx1 : ∀ (k : Fin 128) (q : Fin 128), x1 (ix2 k q) = B (ix2 k q)) (p : Fin 5000) (q : Fin 128) :
    k0_pay1 (F := Ideal) x0 x1 (ix2 p q) = prod A B (ix2 ⟨o + p.val, by have := p.isLt; omega⟩ q) := by
  unfold k0_pay1
  exact matmul_rows plain none A B _ _ o ho hx0 hx1 p q

theorem hz : (![0, 0] : Fin 2 → Nat) = fun _ => 0 := funext fun a => by fin_cases a <;> rfl

/-- The printed index maps over the ten points: the left operand's and the result's block index is (t, 0), the right
    operand's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Where an element of the left operand's block at point `t` sits in the array: row 5000·t + its row, its own column. -/
theorem emb_lhs (t : Fin cfg0.N) (p : Fin 5000) (k : Fin 128) :
    ((cfg0.win 0).blk t).view.emb (ix2 p k) = ix2 (⟨5000 * t.val + p.val, by have ht : t.val < 10 := t.isLt; have := p.isLt; show _ < 50000; omega⟩ : Fin 50000) k := by
  obtain ⟨e0, e1, -⟩ := idx_facts t
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The right operand's block is its whole array. -/
theorem emb_rhs (t : Fin cfg0.N) (k : Fin 128) (q : Fin 128) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Where an element of the result's block at point `t` sits in the array. -/
theorem emb_out (t : Fin cfg0.N) (p : Fin 5000) (q : Fin 128) :
    ((cfg0.win 2).blk t).view.emb (ix2 p q) = ix2 (⟨5000 * t.val + p.val, by have ht : t.val < 10 := t.isLt; have := p.isLt; show _ < 50000; omega⟩ : Fin 50000) q := by
  obtain ⟨-, -, -, -, e4, e5⟩ := idx_facts t
  funext a; apply Fin.ext
  match a with
  | ⟨0, _⟩ => show win0_2.index t (0 : Fin 2) * 5000 + 1 * p.val = 5000 * t.val + p.val; omega
  | ⟨1, _⟩ => show win0_2.index t (1 : Fin 2) * 128 + 1 * q.val = q.val; omega

/-- What point `t` writes back is block `t` of the whole product of the two operands as the call finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = prod (V c main_arg0) (V c main_arg2) (((cfg0.win 2).blk t).view.emb (ix2 p q))
  rw [emb_out t p q]
  refine pay_apply (V c main_arg0) (V c main_arg2) _ _ (5000 * t.val) (by have ht : t.val < 10 := t.isLt; show 5000 * t.val + 5000 ≤ 50000; omega) ?_ ?_ p q
  · intro p' k
    show V c main_arg0 (((cfg0.win 0).blk t).view.emb (ix2 p' k)) = _
    rw [emb_lhs t p' k]
  · intro k q'
    show V c main_arg2 (((cfg0.win 1).blk t).view.emb (ix2 k q')) = _
    rw [emb_rhs t k q']

/-- An index of the result is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the result is in some point's block: row r is in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by show _ < 10; omega⟩, flush0_2 _, ?_⟩
  rw [mem_blk]
  obtain ⟨-, -, -, -, e4, e5⟩ := idx_facts ⟨(i 0).val / 5000, by show _ < 10; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

/-- The result array after the call: the whole product of the operand arrays as the call found them. -/
theorem result (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Matmul1

end
-- ==== Proof.Layers.lean ====
/-
  The layer functions of a two-layer graph convolution, as whole-array functions over the extended reals
  (general in the sizes).

  After the neighbourhood sums of a layer a bias vector is added to every row. The first layer then takes the
  positive part (`biasRelu`); the second takes, row by row, the logarithm of the softmax (`logSoftmax`):
  with m the row's largest entry (from −∞), each entry z becomes (z − m) − log Σₖ exp (zₖ − m).
  The matrix products between them are `RowBlockProduct.prod`.
-/
import Idealize.ShloMosaic.Lib.ValueIdx
import Idealize.ShloMosaic.PureOps.Ideal

open scoped BigOperators

noncomputable section

namespace Cert.Layers

open Idealize.ShloMosaic Idealize.ShloMosaic.ValueIdx

variable {R N : ℕ}

/-- A bias vector added to every row of a matrix. -/
def addBias (a : (⟨2, ![R, N]⟩ : Shape).Idx → EReal) (b : (⟨1, ![N]⟩ : Shape).Idx → EReal) :
    (⟨2, ![R, N]⟩ : Shape).Idx → EReal :=
  fun i => a i + b (ix1 (i 1))

theorem addBias_apply (a : (⟨2, ![R, N]⟩ : Shape).Idx → EReal) (b : (⟨1, ![N]⟩ : Shape).Idx → EReal) (p : Fin R) (q : Fin N) :
    addBias a b (ix2 p q) = a (ix2 p q) + b (ix1 q) := rfl

/-- The bias added, then the positive part: the larger of the sum and zero. -/
def biasRelu (a : (⟨2, ![R, N]⟩ : Shape).Idx → EReal) (b : (⟨1, ![N]⟩ : Shape).Idx → EReal) :
    (⟨2, ![R, N]⟩ : Shape).Idx → EReal :=
  fun i => max (a i + b (ix1 (i 1))) (Ideal.ofBits .f32 0x00000000#32)

theorem biasRelu_apply (a : (⟨2, ![R, N]⟩ : Shape).Idx → EReal) (b : (⟨1, ![N]⟩ : Shape).Idx → EReal) (p : Fin R) (q : Fin N) :
    biasRelu a b (ix2 p q) = max (a (ix2 p q) + b (ix1 q)) (Ideal.ofBits .f32 0x00000000#32) := rfl

/-- The largest entry of row `p`, taken from −∞. -/
def rowMax (z : (⟨2, ![R, N]⟩ : Shape).Idx → EReal) (p : Fin R) : EReal :=
  (Finset.univ : Finset (Fin N)).fold max (Ideal.ofBits .f32 0xFF800000#32) (fun k => z (ix2 p k))

/-- The sum over row `p` of the exponentials of the entries less the row's largest. -/
def rowExpSum (z : (⟨2, ![R, N]⟩ : Shape).Idx → EReal) (p : Fin R) : EReal :=
  ∑ k : Fin N, Ideal.exp (z (ix2 p k) - rowMax z p)

/-- Row by row, the logarithm of the softmax. -/
def logSoftmax (z : (⟨2, ![R, N]⟩ : Shape).Idx → EReal) : (⟨2, ![R, N]⟩ : Shape).Idx → EReal :=
  fun i => (z i - rowMax z (i 0)) - Ideal.log (rowExpSum z (i 0))

theorem logSoftmax_apply (z : (⟨2, ![R, N]⟩ : Shape).Idx → EReal) (p : Fin R) (q : Fin N) :
    logSoftmax z (ix2 p q) = (z (ix2 p q) - rowMax z p) - Ideal.log (rowExpSum z p) := rfl

/-- The row functions depend on the row only. -/
theorem rowMax_congr {R' : ℕ} (z : (⟨2, ![R, N]⟩ : Shape).Idx → EReal) (z' : (⟨2, ![R', N]⟩ : Shape).Idx → EReal)
    (p : Fin R) (p' : Fin R') (h : ∀ k : Fin N, z (ix2 p k) = z' (ix2 p' k)) : rowMax z p = rowMax z' p' := by
  unfold rowMax
  exact congrArg (fun f => (Finset.univ : Finset (Fin N)).fold max (Ideal.ofBits .f32 0xFF800000#32) f) (funext h)

theorem rowExpSum_congr {R' : ℕ} (z : (⟨2, ![R, N]⟩ : Shape).Idx → EReal) (z' : (⟨2, ![R', N]⟩ : Shape).Idx → EReal)
    (p : Fin R) (p' : Fin R') (h : ∀ k : Fin N, z (ix2 p k) = z' (ix2 p' k)) : rowExpSum z p = rowExpSum z' p' := by
  unfold rowExpSum
  rw [rowMax_congr z z' p p' h]
  exact Finset.sum_congr rfl fun k _ => by rw [h k]

end Cert.Layers

end
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.BiasRelu.lean ====
/-
  What the second pallas_call leaves in its result array.

  The first layer's bias and positive part: the 50000 rows of the summed messages in ten blocks of 5000, the bias
  held as one row [1, 128] and spread over the block's rows. At (p, q) the body stores the larger of
  block(p, q) + bias(q) and zero, and the block is written back to rows 5000·t … 5000·t + 4999 of the result: entry
  (5000·t + p, q) of `biasRelu` of the whole array and the bias vector. The ten write-backs tile the result.
-/
import proofs.«167320_j6236292514024_1_alg».proof.Proof.Gen.KernelIdeal.Frame
import proofs.«167320_j6236292514024_1_alg».proof.Proof.Layers
import proofs.«167320_j6236292514024_1_alg».proof.Proof.LibRowSpread
import Idealize.ShloMosaic.Lib.Pipeline.Value
import Idealize.ShloMosaic.Lib.ValueIdx

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.ValueIdx Cert.Layers
open Idealize.ShloMosaic.Pipeline (Dat)

/-- The stored value at (p, q), for a block that is rows o … o + 4999 of `a` and a bias row that is the vector `b`:
    `biasRelu a b` at (o + p, q). -/
theorem pay_apply (a : S50000x128.Idx → EReal) (b : S128.Idx → EReal)
    (x0 : Vec Ideal S5000x128 .f32) (x1 : Vec Ideal S1x128 .f32) (o : ℕ) (ho : o + 5000 ≤ 50000)
    (hx0 : ∀ (p : Fin 5000) (k : Fin 128), x0 (ix2 p k) = a (ix2 ⟨o + p.val, by have := p.isLt; omega⟩ k))
    (hx1 : ∀ k : Fin 128, x1 (ix2 (0 : Fin 1) k) = b (ix1 k)) (p : Fin 5000) (q : Fin 128) :
    k1_pay1 (F := Ideal) x0 x1 (ix2 p q) = biasRelu a b (ix2 ⟨o + p.val, by have := p.isLt; omega⟩ q) := by
  unfold k1_pay1
  rw [shapeCast_self, shapeCast_self]
  rw [biasRelu_apply, ← hx0 p q, ← hx1 q]
  show max (x0 (ix2 p q) + broadcastTo S5000x128 x1 broadcasts_S1x128_S5000x128 (ix2 p q)) (Ideal.ofBits .f32 0x00000000#32) = _
  rw [Cert.Lib.RowSpread.spreadRows_apply]

theorem hz : (![0, 0] : Fin 2 → Nat) = fun _ => 0 := funext fun a => by fin_cases a <;> rfl

/-- The printed index maps over the ten points: the summed messages' and the result's block index is (t, 0), the
    bias row's (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Where an element of the input block at point `t` sits in the array: row 5000·t + its row, its own column. -/
theorem emb_in (t : Fin cfg1.N) (p : Fin 5000) (k : Fin 128) :
    ((cfg1.win 0).blk t).view.emb (ix2 p k) = ix2 (⟨5000 * t.val + p.val, by have ht : t.val < 10 := t.isLt; have := p.isLt; show _ < 50000; omega⟩ : Fin 50000) k := by
  obtain ⟨e0, e1, -⟩ := idx_facts t
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- The bias row's block is its whole array. -/
theorem emb_bias (t : Fin cfg1.N) (k : Fin 128) :
    ((cfg1.win 1).blk t).view.emb (ix2 (0 : Fin 1) k) = ix2 (0 : Fin 1) k := by
  obtain ⟨-, -, e2, e3, -⟩ := idx_facts t
  funext a; apply Fin.ext
  match a with
  | ⟨0, _⟩ => show win1_1.index t (0 : Fin 2) * 1 + 1 * (0 : Fin 1).val = (0 : Fin 1).val; omega
  | ⟨1, _⟩ => show win1_1.index t (1 : Fin 2) * 128 + 1 * k.val = k.val; omega

/-- Where an element of the result's block at point `t` sits in the array. -/
theorem emb_out (t : Fin cfg1.N) (p : Fin 5000) (q : Fin 128) :
    ((cfg1.win 2).blk t).view.emb (ix2 p q) = ix2 (⟨5000 * t.val + p.val, by have ht : t.val < 10 := t.isLt; have := p.isLt; show _ < 50000; omega⟩ : Fin 50000) q := by
  obtain ⟨-, -, -, -, e4, e5⟩ := idx_facts t
  funext a; apply Fin.ext
  match a with
  | ⟨0, _⟩ => show win1_2.index t (0 : Fin 2) * 5000 + 1 * p.val = 5000 * t.val + p.val; omega
  | ⟨1, _⟩ => show win1_2.index t (1 : Fin 2) * 128 + 1 * q.val = q.val; omega

/-- What point `t` writes back is block `t` of `biasRelu` of the summed messages as the call finds them and the bias
    vector `b` that the call's one-row operand holds. -/
theorem flushed_eq (c : Dev nD) (b : S128.Idx → EReal) (hb : ∀ k : Fin 128, V c main_v44 (ix2 (0 : Fin 1) k) = b (ix1 k))
    (t : Fin cfg1.N) :
    (dat1 V c).flushed 2 t = ((cfg1.win 2).blk t).view.read (Elt Ideal) (biasRelu (V c main_v43) b) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q) = biasRelu (V c main_v43) b (((cfg1.win 2).blk t).view.emb (ix2 p q))
  rw [emb_out t p q]
  refine pay_apply (V c main_v43) b _ _ (5000 * t.val) (by have ht : t.val < 10 := t.isLt; show 5000 * t.val + 5000 ≤ 50000; omega) ?_ ?_ p q
  · intro p' k
    show V c main_v43 (((cfg1.win 0).blk t).view.emb (ix2 p' k)) = _
    rw [emb_in t p' k]
  · intro k
    show V c main_v44 (((cfg1.win 1).blk t).view.emb (ix2 (0 : Fin 1) k)) = _
    rw [emb_bias t k, hb k]

/-- An index of the result is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every index of the result is in some point's block: row r is in block r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  refine ⟨⟨(i 0).val / 5000, by show _ < 10; omega⟩, flush1_2 _, ?_⟩
  rw [mem_blk]
  obtain ⟨-, -, -, -, e4, e5⟩ := idx_facts ⟨(i 0).val / 5000, by show _ < 10; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 128 ≤ (i 1).val ∧ (i 1).val < win1_2.index _ (1 : Fin 2) * 128 + 128; rw [e5]; omega

/-- The result array after the call: `biasRelu` of the summed messages as the call found them and the bias vector. -/
theorem result (c : Dev nD) (b : S128.Idx → EReal) (hb : ∀ k : Fin 128, V c main_v44 (ix2 (0 : Fin 1) k) = b (ix1 k)) :
    (dat1 V c).arrAt 2 cfg1.N = biasRelu (V c main_v43) b :=
  (dat1 V c).arrAt_eq_of_cover 2 (biasRelu (V c main_v43) b) (fun t _ => flushed_eq V c b hb t) cover

end Cert.KernelIdeal.BiasRelu

end
-- ==== Proof.Matmul2.lean ====
/-
  What the third pallas_call leaves in its result array.

  The second layer's feature transform: the 50000 rows of the left operand in ten blocks of 5000, each block
  (a shape cast to its own shape and the narrowing to bf16 both change nothing on the extended reals) multiplied by
  the whole 128 × 40 right operand into a zero accumulator and written back to the same rows of the result. Entry
  (p, q) of block `t`'s product is the sum over k of left(5000·t + p, k) · right(k, q), entry (5000·t + p, q) of the
  whole product; the ten write-backs tile the result, which therefore ends holding the whole product of the two
  operands as the call found them.
-/
import proofs.«167320_j6236292514024_1_alg».proof.Proof.Gen.KernelIdeal.Frame
import proofs.«167320_j6236292514024_1_alg».proof.Proof.LibRowBlockProduct
import Idealize.ShloMosaic.Lib.Pipeline.Value
import Idealize.ShloMosaic.Lib.ValueIdx

set_option maxRecDepth 16384

noncomputable section

namespace Cert.KernelIdeal.Matmul2

open Cert.KernelIdeal Cert.KernelIdeal.Gen Idealize.ShloMosaic Idealize.ShloMosaic.TcCoe Idealize.SL.Sem
open Idealize.ShloMosaic.ValueIdx Idealize.ShloMosaic.PlainDot Idealize.ShloMosaic.RowBlockProduct
open Idealize.ShloMosaic.Pipeline (Dat)

/-- The body's dimension numbers are the plain ones of [5000, 128] · [128, 40]. -/
theorem plain : IsPlain dot_S5000x128_S128x40_S5000x40_1_0_0_1_n_n := ⟨rfl, rfl, rfl, rfl, rfl, rfl⟩

/-- The stored value at (p, q), for a left block that is rows o … o + 4999 of `A` and a right block that is `B`:
    the whole product at (o + p, q). -/
theorem pay_apply (A : S50000x128.Idx → EReal) (B : S128x40.Idx → EReal)
    (x0 : Vec Ideal S5000x128 .f32) (x1 : Vec Ideal S128x40 .f32) (o : ℕ) (ho : o + 5000 ≤ 50000)
    (hx0 : ∀ (p : Fin 5000) (k : Fin 128), x0 (ix2 p k) = A (ix2 ⟨o + p.val, by have := p.isLt; omega⟩ k))
    (hx1 : ∀ (k : Fin 128) (q : Fin 40), x1 (ix2 k q) = B (ix2 k q)) (p : Fin 5000) (q : Fin 40) :
    k2_pay1 (F := Ideal) x0 x1 (ix2 p q) = prod A B (ix2 ⟨o + p.val, by have := p.isLt; omega⟩ q) := by
  unfold k2_pay1
  rw [shapeCast_self]
  exact matmul_rows plain none A B _ _ o ho hx0 hx1 p q

theorem hz : (![0, 0] : Fin 2 → Nat) = fun _ => 0 := funext fun a => by fin_cases a <;> rfl

/-- The printed index maps over the ten points: the left operand's and the result's block index is (t, 0), the right
    operand's (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Where an element of the left operand's block at point `t` sits in the array: row 5000·t + its row, its own column. -/
theorem emb_lhs (t : Fin cfg2.N) (p : Fin 5000) (k : Fin 128) :
    ((cfg2.win 0).blk t).view.emb (ix2 p k) = ix2 (⟨5000 * t.val + p.val, by have ht : t.val < 10 := t.isLt; have := p.isLt; show _ < 50000; omega⟩ : Fin 50000) k := by
  obtain ⟨e0, e1, -⟩ := idx_facts t
  funext a; apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- The right operand's block is its whole array. -/
theorem emb_rhs (t : Fin cfg2.N) (k : Fin 128) (q : Fin 40) :
    ((cfg2.win 1).blk t).view.emb (ix2 k q) = ix2 k q := by
  obtain ⟨-, -, e2, e3, -⟩ := idx_facts t
  funext a; apply Fin.ext
  match a with
  | ⟨0, _⟩ => show win2_1.index t (0 : Fin 2) * 128 + 1 * k.val = k.val; omega
  | ⟨1, _⟩ => show win2_1.index t (1 : Fin 2) * 40 + 1 * q.val = q.val; omega

/-- Where an element of the result's block at point `t` sits in the array. -/
theorem emb_out (t : Fin cfg2.N) (p : Fin 5000) (q : Fin 40) :
    ((cfg2.win 2).blk t).view.emb (ix2 p q) = ix2 (⟨5000 * t.val + p.val, by have ht : t.val < 10 := t.isLt; have := p.isLt; show _ < 50000; omega⟩ : Fin 50000) q := by
  obtain ⟨-, -, -, -, e4, e5⟩ := idx_facts t
  funext a; apply Fin.ext
  match a with
  | ⟨0, _⟩ => show win2_2.index t (0 : Fin 2) * 5000 + 1 * p.val = 5000 * t.val + p.val; omega
  | ⟨1, _⟩ => show win2_2.index t (1 : Fin 2) * 40 + 1 * q.val = q.val; omega

/-- What point `t` writes back is block `t` of the whole product of the two operands as the call finds them. -/
theorem flushed_eq (c : Dev nD) (t : Fin cfg2.N) :
    (dat2 V c).flushed 2 t = ((cfg2.win 2).blk t).view.read (Elt Ideal) (prod (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  funext j
  obtain ⟨p, q, rfl⟩ : ∃ (p : Fin 5000) (q : Fin 40), j = ix2 p q := ⟨j 0, j 1, eq_ix2 j⟩
  show k2_pay1 (F := Ideal) (iblk2 V c 0 t) (iblk2 V c 1 t) (ix2 p q) = prod (V c main_v45) (V c main_arg4) (((cfg2.win 2).blk t).view.emb (ix2 p q))
  rw [emb_out t p q]
  refine pay_apply (V c main_v45) (V c main_arg4) _ _ (5000 * t.val) (by have ht : t.val < 10 := t.isLt; show 5000 * t.val + 5000 ≤ 50000; omega) ?_ ?_ p q
  · intro p' k
    show V c main_v45 (((cfg2.win 0).blk t).view.emb (ix2 p' k)) = _
    rw [emb_lhs t p' k]
  · intro k q'
    show V c main_arg4 (((cfg2.win 1).blk t).view.emb (ix2 k q')) = _
    rw [emb_rhs t k q']

/-- An index of the result is in point `t`'s block iff each coordinate is in the block's range on its axis. -/
theorem mem_blk (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- Every index of the result is in some point's block: row r is in block r / 5000. -/
theorem cover (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  refine ⟨⟨(i 0).val / 5000, by show _ < 10; omega⟩, flush2_2 _, ?_⟩
  rw [mem_blk]
  obtain ⟨-, -, -, -, e4, e5⟩ := idx_facts ⟨(i 0).val / 5000, by show _ < 10; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 40 ≤ (i 1).val ∧ (i 1).val < win2_2.index _ (1 : Fin 2) * 40 + 40; rw [e5]; omega

/-- The result array after the call: the whole product of the operand arrays as the call found them. -/
theorem result (c : Dev nD) : (dat2 V c).arrAt 2 cfg2.N = prod (V c main_v45) (V c main_arg4) :=
  (dat2 V c).arrAt_eq_of_cover 2 (prod (V c main_v45) (V c main_arg4)) (fun t _ => flushed_eq V c t) cover

end Cert.KernelIdeal.Matmul2

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.LibRowReduce.lean ====
/-
  A reduction over the columns of a matrix, read at a row (general in the sizes).

  A matrix `[R, N]` reduced over its second axis to a vector `[R]`, at the ideal values. The MAXIMUM — a kernel's
  multi-reduction from its accumulator's value, a host's reduce with a maximum body from its initial value — is at
  row `p` the fold of `max` over the row's `N` entries. The SUM — a kernel's multi-reduction, a host's add-reduce —
  is at row `p` the sum of the row's `N` entries (the host's, its initial value plus that sum). In each the row's
  entries are named by their coordinates `(p, k)`: the source index that lies over row `p` with `k` on the reduced
  axis is `(p, k)` (`lift_eq`), so a kernel's and a host's reduction of the same rows are one expression.
-/
import Idealize.ShloMosaic.Lib.ValueIdx
import Idealize.ShloMosaic.PureOps.Ideal.Laws

open scoped BigOperators

noncomputable section

namespace Idealize.ShloMosaic.RowReduce

open Idealize.ShloMosaic Idealize.ShloMosaic.ValueIdx

variable {R N : ℕ} {φ : FTy}

/-- Over row `p`, with `k` on the reduced axis: the entry `(p, k)`. -/
theorem lift_eq (h : (⟨2, ![R, N]⟩ : Shape).Reduces [1] (⟨1, ![R]⟩ : Shape)) (p : Fin R) (k : Fin N) :
    h.lift (ix1 p) k = ix2 p k := by
  funext c; apply Fin.ext
  match c with
  | ⟨0, _⟩ => rfl
  | ⟨1, _⟩ => rfl

/-- A kernel's maximum over the columns, at row `p`: the fold of `max` from the accumulator's value over the row. -/
theorem multiReduction_max_row (src : FVec Ideal (⟨2, ![R, N]⟩ : Shape) φ) (acc : BitVec φ.bits)
    (h : (⟨2, ![R, N]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin N)).fold max (Ideal.ofBits φ acc) (fun k => src (ix2 p k)) := by
  refine (Ideal.multiReduction_maximumf_single src acc h hφ hacc (ix1 p)).trans ?_
  exact congrArg (fun f => (Finset.univ : Finset (Fin N)).fold max (Ideal.ofBits φ acc) f)
    (funext fun k => congrArg src (lift_eq h p k))

/-- A kernel's sum over the columns, at row `p`: the sum of the row. -/
theorem multiReduction_add_row (src : FVec Ideal (⟨2, ![R, N]⟩ : Shape) φ) (acc : BitVec φ.bits)
    (h : (⟨2, ![R, N]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin N, src (ix2 p k) := by
  refine (Ideal.multiReduction_add_single src acc h hφ hacc (ix1 p)).trans ?_
  exact Finset.sum_congr rfl fun k _ => congrArg src (lift_eq h p k)

/-- A host's reduce with a maximum body over the columns, at row `p`: the fold of `max` from its initial value over the row. -/
theorem hostReduce_max_row {u : Shape} (x : FVec Ideal (⟨2, ![R, N]⟩ : Shape) φ) (init : u.Idx → Ideal φ)
    (h' : (⟨2, ![R, N]⟩ : Shape).ReducesTo [1] (⟨1, ![R]⟩ : Shape))
    (h : (⟨2, ![R, N]⟩ : Shape).Reduces [1] (⟨1, ![R]⟩ : Shape)) (hu : 0 < u.numel) (p : Fin R) :
    Host.reduce (FloatOps.maximumf (F := Ideal) (φ := φ)) x init h' hu (ix1 p)
      = (Finset.univ : Finset (Fin N)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin N)).fold max (init (Shape.Idx.first hu)) f)
    (funext fun k => congrArg x (lift_eq h p k))

/-- A host's add-reduce over the columns, at row `p`: its initial value plus the sum of the row. -/
theorem hostReduceAdd_row {u : Shape} (x : FVec Ideal (⟨2, ![R, N]⟩ : Shape) φ) (init : u.Idx → Ideal φ)
    (h' : (⟨2, ![R, N]⟩ : Shape).ReducesTo [1] (⟨1, ![R]⟩ : Shape))
    (h : (⟨2, ![R, N]⟩ : Shape).Reduces [1] (⟨1, ![R]⟩ : Shape)) (hu : 0 < u.numel) (p : Fin R) :
    Host.reduceAdd x init h' hu (ix1 p) = init (Shape.Idx.first hu) + ∑ k : Fin N, x (ix2 p k) := by
  simp only [Host.reduceAdd, Ideal.hostReduceAdd_def]
  rw [Ideal.hostReduceAdd_single h' h]
  exact congrArg (_ + ·) (Finset.sum_congr rfl fun k _ => congrArg x (lift_eq h p k))

end Idealize.ShloMosaic.RowReduce

end
-- ==== Proof.LogSoftmax.lean ====
/-
  What the fourth pallas_call leaves in its result array.

  The second layer's bias and row-wise log-softmax: the 50000 rows of the summed messages in ten blocks of 5000,
  the bias held as one row [1, 40] and spread over the block's rows. With z = block + bias, the body takes each
  row's largest entry m (a maximum over the 40 lanes from −∞, recast as a column and spread back over the lanes),
  forms z − m, sums exp (z − m) over the lanes, and stores (z − m) − log of that sum: `logSoftmax z`, whose value at
  (p, q) reads row p of z only. Row p of block `t` is row 5000·t + p of the whole array plus the bias, so the block
  written back to rows 5000·t … is that block of `logSoftmax (addBias a b)`; the ten write-backs tile the result.
-/
import proofs.«167320_j6236292514024_1_alg».proof.Proof.Gen.KernelIdeal.Frame
import proofs.«167320_j6236292514024_1_alg».proof.Proof.Layers
import proofs.«167320_j6236292514024_1_alg».proof.Proof.LibRowSpread
import proofs.«167320_j6236292514024_1_alg».proof.Proof.LibColumn
import proofs.«167320_j6236292514024_1_alg».proof.Proof.LibRowReduce
import Idealize.ShloMosaic.Lib.Pipeline.Value
import Idealize.ShloMosaic.Lib.ValueIdx

set_option maxRecDepth 16384

open scoped BigOperators

noncomputable section

namespace Cert.KernelIdeal.LogSoftmax

open Cert.KernelIdeal Cert.KernelIdeal.Gen Idealize.ShloMosaic Idealize.ShloMosaic.TcCoe Idealize.SL.Sem
open Idealize.ShloMosaic.ValueIdx Cert.Layers
open Idealize.ShloMosaic.Pipeline (Dat)

/-- A block's row maxima, recast as a column and spread back over the lanes: at (p, q) the largest entry of row p. -/
theorem spreadMax_apply (z : FVec Ideal S5000x40 .f32) (p : Fin 5000) (q : Fin 40) :
    broadcastTo S5000x40 (shapeCast S5000x1 (multiReduction .maximumf [1] S5000 z 0xFF800000#32 reduces_S5000x40_S5000 (.inl rfl) rfl)
      shapeCasts_S5000_S5000x1) broadcasts_S5000x1_S5000x40 (ix2 p q) = rowMax z p := by
  rw [ValueLayout.broadcastTo_a1_ab_apply (by decide), ValueLayout.shapeCast_a_a1_apply]
  exact RowReduce.multiReduction_max_row z 0xFF800000#32 reduces_S5000x40_S5000 (.inl rfl) rfl p

/-- The logarithm of a block's row sums, as a column spread back over the lanes: at (p, q) the logarithm of row p's sum. -/
theorem spreadLogSum_apply (w : FVec Ideal S5000x40 .f32) (p : Fin 5000) (q : Fin 40) :
    broadcastTo S5000x40 (log (shapeCast S5000x1 (multiReduction .add [1] S5000 w 0x00000000#32 reduces_S5000x40_S5000 (.inl rfl) rfl)
      shapeCasts_S5000_S5000x1)) broadcasts_S5000x1_S5000x40 (ix2 p q) = Ideal.log (∑ k : Fin 40, w (ix2 p k)) := by
  rw [ValueLayout.broadcastTo_a1_ab_apply (by decide)]
  show Ideal.log (shapeCast S5000x1 _ shapeCasts_S5000_S5000x1 (ix2 p (0 : Fin 1))) = _
  rw [ValueLayout.shapeCast_a_a1_apply]
  exact congrArg Ideal.log (RowReduce.multiReduction_add_row w 0x00000000#32 reduces_S5000x40_S5000 (.inl rfl) rfl p)

/-- The body's operations on z = block + bias: the row maxima spread, the difference, the exponentials' row sums, their
    logarithm spread, the second difference. -/
def rows (z : FVec Ideal S5000x40 .f32) : FVec Ideal S5000x40 .f32 :=
  subf
    (subf z (broadcastTo S5000x40 (shapeCast S5000x1 (multiReduction .maximumf [1] S5000 z 0xFF800000#32 reduces_S5000x40_S5000 (.inl rfl) rfl)
      shapeCasts_S5000_S5000x1) broadcasts_S5000x1_S5000x40))
    (broadcastTo S5000x40 (log (shapeCast S5000x1 (multiReduction .add [1] S5000
      (exp (subf z (broadcastTo S5000x40 (shapeCast S5000x1 (multiReduction .maximumf [1] S5000 z 0xFF800000#32 reduces_S5000x40_S5000 (.inl rfl) rfl)
        shapeCasts_S5000_S5000x1) broadcasts_S5000x1_S5000x40)))
      0x00000000#32 reduces_S5000x40_S5000 (.inl rfl) rfl) shapeCasts_S5000_S5000x1)) broadcasts_S5000x1_S5000x40)

/-- The stored value is those operations of the block plus the spread bias row. -/
theorem pay_eq (x0 : Vec Ideal S5000x40 .f32) (x1 : Vec Ideal S1x40 .f32) :
    k3_pay1 (F := Ideal) x0 x1
      = rows (addf (shapeCast S5000x40 x0 shapeCasts_S5000x40_S5000x40)
          (broadcastTo S5000x40 (shapeCast S1x40 x1 shapeCasts_S1x40_S1x40) broadcasts_S1x40_S5000x40)) := rfl

/-- Those operations are the row-wise log-softmax, entry by entry. -/
theorem rows_apply (z : FVec Ideal S5000x40 .f32) (p : Fin 5000) (q : Fin 40) :
    rows z (ix2 p q) = logSoftmax z (ix2 p q) := by
  unfold rows
  rw [logSoftmax_apply, subf_apply, subf_apply, spreadMax_apply, spreadLogSum_apply]
  refine congrArg (fun s => (z (ix2 p q) - rowMax z p) - Ideal.log s) ?_
  unfold rowExpSum
  refine Finset.sum_congr rfl fun k _ => ?_
  show Ideal.exp (subf z _ (ix2 p k)) = _
  rw [subf_apply, spreadMax_apply]

/-- The stored value at (p, q), for a block that is rows o … o + 4999 of `a` and a bias row that is the vector `b`:
    the log-softmax of `a` plus the bias, at (o + p, q). -/
theorem pay_apply (a : S50000x40.Idx → EReal) (b : S40.Idx → EReal)
    (x0 : Vec Ideal S5000x40 .f32) (x1 : Vec Ideal S1x40 .f32) (o : ℕ) (ho : o + 5000 ≤ 50000)
    (hx0 : ∀ (p : Fin 5000) (k : Fin 40), x0 (ix2 p k) = a (ix2 ⟨o + p.val, by have := p.isLt; omega⟩ k))
    (hx1 : ∀ k : Fin 40, x1 (ix2 (0 : Fin 1) k) = b (ix1 k)) (p : Fin 5000) (q : Fin 40) :
    k3_pay1 (F := Ideal) x0 x1 (ix2 p q) = logSoftmax (addBias a b) (ix2 ⟨o + p.val, by have := p.isLt; omega⟩ q) := by
  rw [pay_eq, shapeCast_self, shapeCast_self, rows_apply]
  have hz : ∀ k : Fin 40, (addf (F := Ideal) (φ := .f32) x0 (broadcastTo S5000x40 x1 broadcasts_S1x40_S5000x40) : FVec Ideal S5000x40 .f32) (ix2 p k)
      = addBias a b (ix2 (⟨o + p.val, by have := p.isLt; omega⟩ : Fin 50000) k) := by
    intro k
    rw [addf_apply, Cert.Lib.RowSpread.spreadRows_apply, hx0 p k, hx1 k, addBias_apply]
  rw [logSoftmax_apply, logSoftmax_apply, rowMax_congr _ _ p _ hz, rowExpSum_congr _ _ p _ hz, hz q]

theorem hz0 : (![0, 0] : Fin 2 → Nat) = fun _ => 0 := funext fun a => by fin_cases a <;> rfl

/-- The printed index maps over the ten points: the summed messages' and the result's block index is (t, 0), the
    bias row's (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- Where an element of the input block at point `t` sits in the array: row 5000·t + its row, its own column. -/
theorem emb_in (t : Fin cfg3.N) (p : Fin 5000) (k : Fin 40) :
    ((cfg3.win 0).blk t).view.emb (ix2 p k) = ix2 (⟨5000 * t.val + p.val, by have ht : t.val < 10 := t.isLt; have := p.isLt; show _ < 50000; omega⟩ : Fin 50000) k := by
  obtain ⟨e0, e1, -⟩ := idx_facts t
  funext a; apply Fin.ext
  match a with
  | ⟨0, _⟩ => show win3_0.index t (0 : Fin 2) * 5000 + 1 * p.val = 5000 * t.val + p.val; omega
  | ⟨1, _⟩ => show win3_0.index t (1 : Fin 2) * 40 + 1 * k.val = k.val; omega

/-- The bias row's block is its whole array. -/
theorem emb_bias (t : Fin cfg3.N) (k : Fin 40) :
    ((cfg3.win 1).blk t).view.emb (ix2 (0 : Fin 1) k) = ix2 (0 : Fin 1) k := by
  obtain ⟨-, -, e2, e3, -⟩ := idx_facts t
  funext a; apply Fin.ext
  match a with
  | ⟨0, _⟩ => show win3_1.index t (0 : Fin 2) * 1 + 1 * (0 : Fin 1).val = (0 : Fin 1).val; omega
  | ⟨1, _⟩ => show win3_1.index t (1 : Fin 2) * 40 + 1 * k.val = k.val; omega

/-- Where an element of the result's block at point `t` sits in the array. -/
theorem emb_out (t : Fin cfg3.N) (p : Fin 5000) (q : Fin 40) :
    ((cfg3.win 2).blk t).view.emb (ix2 p q) = ix2 (⟨5000 * t.val + p.val, by have ht : t.val < 10 := t.isLt; have := p.isLt; show _ < 50000; omega⟩ : Fin 50000) q := by
  obtain ⟨-, -, -, -, e4, e5⟩ := idx_facts t
  funext a; apply Fin.ext
  match a with
  | ⟨0, _⟩ => show win3_2.index t (0 : Fin 2) * 5000 + 1 * p.val = 5000 * t.val + p.val; omega
  | ⟨1, _⟩ => show win3_2.index t (1 : Fin 2) * 40 + 1 * q.val = q.val; omega

/-- What point `t` writes back is block `t` of the log-softmax of the summed messages as the call finds them plus the
    bias vector `b` that the call's one-row operand holds. -/
theorem flushed_eq (c : Dev nD) (b : S40.Idx → EReal) (hb : ∀ k : Fin 40, V c main_v60 (ix2 (0 : Fin 1) k) = b (ix1 k))
    (t : Fin cfg3.N) :
    (dat3 V c).flushed 2 t = ((cfg3.win 2).blk t).view.read (Elt Ideal) (logSoftmax (addBias (V c main_v59) b)) := by
  show (cfg3.win 2).cut (grid3.coords t) ((dat3 V c).after 2 t) = _
  rw [after3_2]
  unfold out3_2
  rw [View.canon_unit_zero hz0]
  simp only [View.ld_unit_zero (S := S5000x40) hz0, View.ld_unit_zero (S := S1x40) hz0]
  funext j
  obtain ⟨p, q, rfl⟩ : ∃ (p : Fin 5000) (q : Fin 40), j = ix2 p q := ⟨j 0, j 1, eq_ix2 j⟩
  show k3_pay1 (F := Ideal) (iblk3 V c 0 t) (iblk3 V c 1 t) (ix2 p q) = logSoftmax (addBias (V c main_v59) b) (((cfg3.win 2).blk t).view.emb (ix2 p q))
  rw [emb_out t p q]
  refine pay_apply (V c main_v59) b _ _ (5000 * t.val) (by have ht : t.val < 10 := t.isLt; show 5000 * t.val + 5000 ≤ 50000; omega) ?_ ?_ p q
  · intro p' k
    show V c main_v59 (((cfg3.win 0).blk t).view.emb (ix2 p' k)) = _
    rw [emb_in t p' k]
  · intro k
    show V c main_v60 (((cfg3.win 1).blk t).view.emb (ix2 (0 : Fin 1) k)) = _
    rw [emb_bias t k, hb k]

/-- An index of the result is in point `t`'s block iff each coordinate is in the block's range on its axis. -/
theorem mem_blk (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v61).slice (win3_2.rect t)).set ↔ _
  rw [View.set_slice_whole, Rect.mem_set_unit]
  exact Iff.rfl

/-- Every index of the result is in some point's block: row r is in block r / 5000. -/
theorem cover (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  refine ⟨⟨(i 0).val / 5000, by show _ < 10; omega⟩, flush3_2 _, ?_⟩
  rw [mem_blk]
  obtain ⟨-, -, -, -, e4, e5⟩ := idx_facts ⟨(i 0).val / 5000, by show _ < 10; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
  | ⟨1, _⟩ => show win3_2.index _ (1 : Fin 2) * 40 ≤ (i 1).val ∧ (i 1).val < win3_2.index _ (1 : Fin 2) * 40 + 40; rw [e5]; omega

/-- The result array after the call: the row-wise log-softmax of the summed messages as the call found them plus the bias. -/
theorem result (c : Dev nD) (b : S40.Idx → EReal) (hb : ∀ k : Fin 40, V c main_v60 (ix2 (0 : Fin 1) k) = b (ix1 k)) :
    (dat3 V c).arrAt 2 cfg3.N = logSoftmax (addBias (V c main_v59) b) :=
  (dat3 V c).arrAt_eq_of_cover 2 (logSoftmax (addBias (V c main_v59) b)) (fun t _ => flushed_eq V c b hb t) cover

end Cert.KernelIdeal.LogSoftmax

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.RefLayers.lean ====
/-
  The reference's layers as the layer functions.

  Of the reference's stages four are not shared, operation for operation, with the kernel's host program: the two
  general dot products (each the whole matrix product, by the plain dimension numbers), the first layer's
  bias-add and positive part (the bias broadcast to a row and then over all rows, a maximum with a broadcast zero:
  `biasRelu`), and the second layer's bias-add and log-softmax. The log-softmax the reference prints takes the row
  maximum by a reduce from −∞ and once more against a broadcast −∞ (which changes nothing), subtracts it, sums the
  exponentials by an add-reduce from zero, and subtracts the logarithm: `logSoftmax` of the input, row by row.
-/
import proofs.«167320_j6236292514024_1_alg».proof.Proof.RefStages
import proofs.«167320_j6236292514024_1_alg».proof.Proof.Layers
import proofs.«167320_j6236292514024_1_alg».proof.Proof.LibRowBlockProduct
import proofs.«167320_j6236292514024_1_alg».proof.Proof.LibBroadcastInDim
import proofs.«167320_j6236292514024_1_alg».proof.Proof.LibRowReduce

set_option maxRecDepth 16384

open scoped BigOperators

noncomputable section

namespace Cert.ReferenceIdeal.LayerValues

open Cert.ReferenceIdeal Cert.ReferenceIdeal.Gen Cert.ReferenceIdeal.ReadP Idealize.ShloMosaic Idealize.ShloMosaic.TcCoe
open Idealize.ShloMosaic.ValueIdx Idealize.ShloMosaic.PlainDot Idealize.ShloMosaic.RowBlockProduct Cert.Layers

/-! ## The two matrix products -/

theorem plain1 : IsPlain dot_S50000x128_S128x128_S50000x128_1_0_0_1_n_n := ⟨rfl, rfl, rfl, rfl, rfl, rfl⟩
theorem plain2 : IsPlain dot_S50000x128_S128x40_S50000x40_1_0_0_1_n_n := ⟨rfl, rfl, rfl, rfl, rfl, rfl⟩

/-- The first layer's transform is the whole product of the features and the first weight matrix. -/
theorem v30_eq (x0 : FVec Ideal S50000x128 .f32) (x2 : FVec Ideal S128x128 .f32) :
    val_main_v30 (F := Ideal) x0 x2 = prod x0 x2 := by
  unfold val_main_v30
  exact dotGeneral_eq_prod plain1 none x0 x2

/-- The second layer's transform is the whole product of the first layer's output and the second weight matrix. -/
theorem v48_eq (x0 : FVec Ideal S50000x128 .f32) (x1 : (⟨S2x800000, .i32⟩ : BufTy).Contents (Elt Ideal))
    (x2 : FVec Ideal S128x128 .f32) (x3 : FVec Ideal S128 .f32) (x4 : FVec Ideal S128x40 .f32) :
    val_main_v48 (F := Ideal) x0 x1 x2 x3 x4 = prod (val_main_v47 (F := Ideal) x0 x1 x2 x3) x4 := by
  unfold val_main_v48
  exact dotGeneral_eq_prod plain2 none _ x4

/-! ## The first layer's bias and positive part -/

theorem v47_eq (x0 : FVec Ideal S50000x128 .f32) (x1 : (⟨S2x800000, .i32⟩ : BufTy).Contents (Elt Ideal))
    (x2 : FVec Ideal S128x128 .f32) (x3 : FVec Ideal S128 .f32) :
    val_main_v47 (F := Ideal) x0 x1 x2 x3 = biasRelu (val_main_v43 (F := Ideal) x0 x1 x2) x3 := by
  funext i
  obtain ⟨p, q, rfl⟩ : ∃ (p : Fin 50000) (q : Fin 128), i = ix2 p q := ⟨i 0, i 1, eq_ix2 i⟩
  rw [biasRelu_apply]
  unfold val_main_v47 val_main_v46 val_main_v45 val_main_v44 val_main_call1_v0 val_main_call1_cst
  rw [maximumf_apply, addf_apply, ValueLayout.bcast_1n_rn_apply, ValueLayout.bcast_n_1n_apply]
  rfl

/-! ## The second layer's bias and log-softmax -/

theorem v64_eq (x0 : FVec Ideal S50000x128 .f32) (x1 : (⟨S2x800000, .i32⟩ : BufTy).Contents (Elt Ideal))
    (x2 : FVec Ideal S128x128 .f32) (x3 : FVec Ideal S128 .f32) (x4 : FVec Ideal S128x40 .f32) (x5 : FVec Ideal S40 .f32) :
    val_main_v64 (F := Ideal) x0 x1 x2 x3 x4 x5 = addBias (val_main_v61 (F := Ideal) x0 x1 x2 x3 x4) x5 := by
  funext i
  obtain ⟨p, q, rfl⟩ : ∃ (p : Fin 50000) (q : Fin 40), i = ix2 p q := ⟨i 0, i 1, eq_ix2 i⟩
  rw [addBias_apply]
  unfold val_main_v64 val_main_v63 val_main_v62
  rw [addf_apply, ValueLayout.bcast_1n_rn_apply, ValueLayout.bcast_n_1n_apply]

/-- The row maxima as the reference takes and spreads them: a reduce from −∞, a maximum with a broadcast −∞, a column, all
    40 lanes. -/
def hostSpreadMax (z : FVec Ideal S50000x40 .f32) : FVec Ideal S50000x40 .f32 :=
  broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf z (constant S_ .f32 0xFF800000#32) reducesTo_S50000x40_S50000_d1 h_S_)))

/-- The reference's log-softmax as one function of its input. -/
def hostLogSoftmax (z : FVec Ideal S50000x40 .f32) : FVec Ideal S50000x40 .f32 :=
  subf (subf z (hostSpreadMax z))
    (broadcastInDim S50000x40 ![0, 1] bcast_S50000x1_S50000x40_0_1 (Host.log (broadcastInDim S50000x1 ![0] bcast_S50000_S50000x1_0
      (Host.reduceAdd (Host.exp (subf z (hostSpreadMax z))) (constant S_ .f32 0x00000000#32) reducesTo_S50000x40_S50000_d1 h_S_))))

theorem ofBits_ninf : Ideal.ofBits .f32 0xFF800000#32 = ⊥ := by simp [Ideal.ofBits, Ideal.ieee]

theorem hostSpreadMax_apply (z : FVec Ideal S50000x40 .f32) (p : Fin 50000) (q : Fin 40) :
    hostSpreadMax z (ix2 p q) = rowMax z p := by
  unfold hostSpreadMax
  rw [ValueLayout.bcast_r1_rn_apply, ValueLayout.bcast_n_n1_apply, maximumf_apply,
    RowReduce.hostReduce_max_row z _ reducesTo_S50000x40_S50000_d1 (by decide) h_S_ p]
  show max (Ideal.ofBits .f32 0xFF800000#32) (rowMax z p) = rowMax z p
  rw [ofBits_ninf]
  exact max_eq_right bot_le

/-- The host's logarithm and exponential of a vector, at an entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

theorem hostLogSoftmax_apply (z : FVec Ideal S50000x40 .f32) (p : Fin 50000) (q : Fin 40) :
    hostLogSoftmax z (ix2 p q) = logSoftmax z (ix2 p q) := by
  unfold hostLogSoftmax
  rw [logSoftmax_apply, subf_apply, subf_apply, hostSpreadMax_apply, ValueLayout.bcast_r1_rn_apply, hostLog_apply,
    ValueLayout.bcast_n_n1_apply, RowReduce.hostReduceAdd_row _ _ reducesTo_S50000x40_S50000_d1 (by decide) h_S_ p,
    constant_apply, Ideal.ofBits_zero_f32, zero_add]
  refine congrArg (fun s => (z (ix2 p q) - rowMax z p) - Ideal.log s) ?_
  unfold rowExpSum
  refine Finset.sum_congr rfl fun k _ => ?_
  rw [hostExp_apply, subf_apply, hostSpreadMax_apply]

theorem hostLogSoftmax_eq (z : FVec Ideal S50000x40 .f32) : hostLogSoftmax z = logSoftmax z := by
  funext i
  obtain ⟨p, q, rfl⟩ : ∃ (p : Fin 50000) (q : Fin 40), i = ix2 p q := ⟨i 0, i 1, eq_ix2 i⟩
  exact hostLogSoftmax_apply z p q

/-- The reference's result is the row-wise log-softmax of the second layer's summed messages plus its bias. -/
theorem v65_eq (x0 : FVec Ideal S50000x128 .f32) (x1 : (⟨S2x800000, .i32⟩ : BufTy).Contents (Elt Ideal))
    (x2 : FVec Ideal S128x128 .f32) (x3 : FVec Ideal S128 .f32) (x4 : FVec Ideal S128x40 .f32) (x5 : FVec Ideal S40 .f32) :
    val_main_v65 (F := Ideal) x0 x1 x2 x3 x4 x5 = logSoftmax (addBias (val_main_v61 (F := Ideal) x0 x1 x2 x3 x4) x5) := by
  have e : val_main_v65 (F := Ideal) x0 x1 x2 x3 x4 x5 = hostLogSoftmax (val_main_v64 (F := Ideal) x0 x1 x2 x3 x4 x5) := rfl
  rw [e, hostLogSoftmax_eq, v64_eq]

end Cert.ReferenceIdeal.LayerValues

end
-- ==== Proof.KernelValue.lean ====
/-
  The kernel program's result as a function of its arguments.

  The program's run passes nine boundaries: three stretches of host operations (the edge lists with the self loops
  appended, the symmetric normalisation), the first feature transform, a stretch that gathers its rows along the
  edges, scales them and sums them into the destination nodes, the bias and positive part, the second feature
  transform, the same gather–scale–sum over 40 columns, and the bias and log-softmax. Each call's result array is the
  layer function of the call's operands as it found them (a whole matrix product; the bias added and the positive
  part; the bias added and the row-wise log-softmax), and the reference's own stage is the same function of the same
  things; between the calls both programs apply one function to equal inputs. So, boundary by boundary, the buffer
  the next step reads holds the reference's stage of the kernel's arguments, and the last boundary's contents at the
  result array are the reference's result stage.
-/
import proofs.«167320_j6236292514024_1_alg».proof.Proof.KernelRun
import proofs.«167320_j6236292514024_1_alg».proof.Proof.HostStretches
import proofs.«167320_j6236292514024_1_alg».proof.Proof.Matmul1
import proofs.«167320_j6236292514024_1_alg».proof.Proof.BiasRelu
import proofs.«167320_j6236292514024_1_alg».proof.Proof.Matmul2
import proofs.«167320_j6236292514024_1_alg».proof.Proof.LogSoftmax
import proofs.«167320_j6236292514024_1_alg».proof.Proof.RefLayers

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.RowBlockProduct Cert.Layers
open Cert.ReferenceIdeal.ReadP Cert.KernelIdeal.Stretches

variable (m : (ℓ : Loc nD τ sig) → Buf (Elt Ideal) ℓ) (ρ : Dev nD → PrngReg)

/-- After the first call: the first feature transform. -/
theorem W4_v30 (c : Dev nD) : W4 m ρ c (Proc.devRef .tc main_v30) = val_main_v30 (F := Ideal) (A0 m c) (A2 m c) := by
  refine (W4_arr m ρ c 2).trans ((Matmul1.result (V3 m ρ) c).trans ?_)
  show prod (W3 m ρ c (Proc.devRef .tc main_arg0)) (W3 m ρ c (Proc.devRef .tc main_arg2)) = _
  rw [W3_arg0, W3_arg2, Cert.ReferenceIdeal.LayerValues.v30_eq]

/-- Before the second call: the first layer's summed messages. -/
theorem W5_v43' (c : Dev nD) :
    W5 m ρ c (Proc.devRef .tc main_v43) = val_main_v43 (F := Ideal) (A0 m c) (A1 m c) (A2 m c) := by
  rw [W5_v43, W4_v30, v43_eq]

/-- After the second call: the first layer's output. -/
theorem W6_v45 (c : Dev nD) :
    W6 m ρ c (Proc.devRef .tc main_v45) = val_main_v47 (F := Ideal) (A0 m c) (A1 m c) (A2 m c) (A3 m c) := by
  refine (W6_arr m ρ c 2).trans ((BiasRelu.result (V5 m ρ) c (A3 m c) (fun k => ?_)).trans ?_)
  · show W5 m ρ c (Proc.devRef .tc main_v44) (ix2 (0 : Fin 1) k) = _
    rw [W5_v44]
    exact Cert.Lib.RowSpread.asRow_apply _ _ 0 k
  · show biasRelu (W5 m ρ c (Proc.devRef .tc main_v43)) (A3 m c) = _
    rw [W5_v43', Cert.ReferenceIdeal.LayerValues.v47_eq]

/-- After the third call: the second feature transform. -/
theorem W7_v46 (c : Dev nD) :
    W7 m ρ c (Proc.devRef .tc main_v46) = val_main_v48 (F := Ideal) (A0 m c) (A1 m c) (A2 m c) (A3 m c) (A4 m c) := by
  refine (W7_arr m ρ c 2).trans ((Matmul2.result (V6 m ρ) c).trans ?_)
  show prod (W6 m ρ c (Proc.devRef .tc main_v45)) (W6 m ρ c (Proc.devRef .tc main_arg4)) = _
  rw [W6_v45, W6_arg4, Cert.ReferenceIdeal.LayerValues.v48_eq]

/-- Before the fourth call: the second layer's summed messages. -/
theorem W8_v59' (c : Dev nD) :
    W8 m ρ c (Proc.devRef .tc main_v59) = val_main_v61 (F := Ideal) (A0 m c) (A1 m c) (A2 m c) (A3 m c) (A4 m c) := by
  rw [W8_v59, W7_v46, v61_eq]

/-- The result array at the end of the kernel program's run is the reference's result stage of the kernel's arguments. -/
theorem result_eq (c : Dev nD) :
    W9 m ρ c (Proc.devRef .tc main_v61)
      = val_main_v65 (F := Ideal) (A0 m c) (A1 m c) (A2 m c) (A3 m c) (A4 m c) (A5 m c) := by
  refine (W9_arr m ρ c 2).trans ((LogSoftmax.result (V8 m ρ) c (A5 m c) (fun k => ?_)).trans ?_)
  · show W8 m ρ c (Proc.devRef .tc main_v60) (ix2 (0 : Fin 1) k) = _
    rw [W8_v60]
    exact Cert.Lib.RowSpread.asRow_apply _ _ 0 k
  · show logSoftmax (addBias (W8 m ρ c (Proc.devRef .tc main_v59)) (A5 m c)) = _
    rw [W8_v59', Cert.ReferenceIdeal.LayerValues.v65_eq]

end Cert.KernelIdeal.Result

end
-- ==== Proof.RefRunValue.lean ====
/-
  The reference program's run, with its result named by the stages.

  The program is a straight line of 98 host operations, so every weakly fair execution ends with each buffer at the
  fold of the operations over the launch contents. The fold is read in seven pieces, each from contents of which only
  the few buffers it reads are known, by name: the edge lists with their self loops (the first seven operations,
  the program's only concatenations); the edges' normalisation weights; the first layer's transform and summed
  messages; its bias, positive part and the second transform; the second layer's summed messages; its bias and the
  log-softmax's row maxima; the rest of the log-softmax. Each piece leaves the stage of the reference that its last operation writes, and leaves alone the
  buffers later pieces read. No operation writes an argument. The operations of the three functions the program calls (a select against a
  broadcast scalar, the positive part, the log-softmax) are written at the buffers' own types, all but the reduce that takes the
  row maxima, which keeps the program's spelling (its transports are opened by hand: `reduceMax_casts`); as operations
  they are the program's (`ops_eq`).
-/
import proofs.«167320_j6236292514024_1_alg».proof.Proof.RefOps
import proofs.«167320_j6236292514024_1_alg».proof.Proof.RefStages

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The contents after two lines run one after the other: the second line's, from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The pieces of the line -/

/-- The edge lists with the self loops appended. -/
abbrev opsH : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The in-degrees, their reciprocal square roots, the edges' weights. -/
abbrev opsT1 : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    unary main_cst_2 main_call0_v0 ((id) : (⟨S_, .f32⟩ : BufTy).Contents (Elt F) → (⟨S_, .f32⟩ : BufTy).Contents (Elt F)),
    unary main_call0_v0 main_call0_v1 (((broadcastInDim S50000 ![] bcast_S_S50000)) : (⟨S_, .f32⟩ : BufTy).Contents (Elt F) → (⟨S50000, .f32⟩ : BufTy).Contents (Elt F)),
    ternary main_v12 main_v13 main_call0_v1 main_v14 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The first transform, its rows gathered, scaled and summed. -/
abbrev opsT2 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The first bias and positive part, the second transform. -/
abbrev opsT3 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    nullary main_call1_cst ((constant S_ .f32 0x00000000#32) : (⟨S_, .f32⟩ : BufTy).Contents (Elt F)),
    unary main_call1_cst main_call1_v0 (((broadcastInDim S50000x128 ![] bcast_S_S50000x128)) : (⟨S_, .f32⟩ : BufTy).Contents (Elt F) → (⟨S50000x128, .f32⟩ : BufTy).Contents (Elt F)),
    binary main_v46 main_call1_v0 main_v47 ((maximumf) : (⟨S50000x128, .f32⟩ : BufTy).Contents (Elt F) → (⟨S50000x128, .f32⟩ : BufTy).Contents (Elt F) → (⟨S50000x128, .f32⟩ : BufTy).Contents (Elt F)),
    binary main_v47 main_arg4 main_v48 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]

/-- Its rows gathered, scaled and summed. -/
abbrev opsT4 : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v5 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v5 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v5 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x40 ![0, 1] bcast_S850000x1_S850000x40_0_1 : (⟨S850000x1, .f32⟩ : BufTy).Contents (Elt F) → (⟨S850000x40, .f32⟩ : BufTy).Contents (Elt F)),
    binary main_v55 main_v57 main_v58 (mulf : (⟨S850000x40, .f32⟩ : BufTy).Contents (Elt F) → (⟨S850000x40, .f32⟩ : BufTy).Contents (Elt F) → (⟨S850000x40, .f32⟩ : BufTy).Contents (Elt F)),
    nullary main_cst_11 (constant S_ .f32 0x00000000#32),
    unary main_cst_11 main_v59 (broadcastInDim S50000x40 ![] bcast_S_S50000x40 : (⟨S_, .f32⟩ : BufTy).Contents (Elt F) → (⟨S50000x40, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)) ]

/-- The second bias, and the row maxima of the log-softmax (a reduce with a maximum body, in the program's own spelling). -/
abbrev opsT5a : List (HloOp τ sig (Elt F)) :=
  [ unary main_arg5 main_v62 (broadcastInDim S1x40 ![1] bcast_S40_S1x40_1 : (⟨S40, .f32⟩ : BufTy).Contents (Elt F) → (⟨S1x40, .f32⟩ : BufTy).Contents (Elt F)),
    unary main_v62 main_v63 (broadcastInDim S50000x40 ![0, 1] bcast_S1x40_S50000x40_0_1 : (⟨S1x40, .f32⟩ : BufTy).Contents (Elt F) → (⟨S50000x40, .f32⟩ : BufTy).Contents (Elt F)),
    binary main_v61 main_v63 main_v64 (addf : (⟨S50000x40, .f32⟩ : BufTy).Contents (Elt F) → (⟨S50000x40, .f32⟩ : BufTy).Contents (Elt F) → (⟨S50000x40, .f32⟩ : BufTy).Contents (Elt F)),
    nullary main_call2_cst ((constant S_ .f32 0xFF800000#32) : (⟨S_, .f32⟩ : BufTy).Contents (Elt F)),
    TRef.binary (TRef.of (T := ⟨S50000x40, .f32⟩) main_v64) (TRef.of (T := ⟨S_, .f32⟩) main_call2_cst) (TRef.of (T := ⟨S50000, .f32⟩) main_call2_v0) (fun x v => Host.reduce FloatOps.maximumf x v reducesTo_S50000x40_S50000_d1 h_S_) ]

/-- The rest of the log-softmax. -/
abbrev opsT5b : List (HloOp τ sig (Elt F)) :=
  [ nullary main_call2_cst_0 ((constant S_ .f32 0xFF800000#32) : (⟨S_, .f32⟩ : BufTy).Contents (Elt F)),
    unary main_call2_cst_0 main_call2_v1 (((broadcastInDim S50000 ![] bcast_S_S50000)) : (⟨S_, .f32⟩ : BufTy).Contents (Elt F) → (⟨S50000, .f32⟩ : BufTy).Contents (Elt F)),
    binary main_call2_v1 main_call2_v0 main_call2_v2 ((maximumf) : (⟨S50000, .f32⟩ : BufTy).Contents (Elt F) → (⟨S50000, .f32⟩ : BufTy).Contents (Elt F) → (⟨S50000, .f32⟩ : BufTy).Contents (Elt F)),
    unary main_call2_v2 main_call2_v3 (((broadcastInDim S50000x1 ![0] bcast_S50000_S50000x1_0)) : (⟨S50000, .f32⟩ : BufTy).Contents (Elt F) → (⟨S50000x1, .f32⟩ : BufTy).Contents (Elt F)),
    unary main_call2_v3 main_call2_v4 (((broadcastInDim S50000x40 ![0, 1] bcast_S50000x1_S50000x40_0_1)) : (⟨S50000x1, .f32⟩ : BufTy).Contents (Elt F) → (⟨S50000x40, .f32⟩ : BufTy).Contents (Elt F)),
    binary main_v64 main_call2_v4 main_call2_v5 ((subf) : (⟨S50000x40, .f32⟩ : BufTy).Contents (Elt F) → (⟨S50000x40, .f32⟩ : BufTy).Contents (Elt F) → (⟨S50000x40, .f32⟩ : BufTy).Contents (Elt F)),
    unary main_call2_v5 main_call2_v6 ((Host.exp) : (⟨S50000x40, .f32⟩ : BufTy).Contents (Elt F) → (⟨S50000x40, .f32⟩ : BufTy).Contents (Elt F)),
    nullary main_call2_cst_1 ((constant S_ .f32 0x00000000#32) : (⟨S_, .f32⟩ : BufTy).Contents (Elt F)),
    binary main_call2_v6 main_call2_cst_1 main_call2_v7 (((fun x v => Host.reduceAdd x v reducesTo_S50000x40_S50000_d1 h_S_)) : (⟨S50000x40, .f32⟩ : BufTy).Contents (Elt F) → (⟨S_, .f32⟩ : BufTy).Contents (Elt F) → (⟨S50000, .f32⟩ : BufTy).Contents (Elt F)),
    unary main_call2_v7 main_call2_v8 (((broadcastInDim S50000x1 ![0] bcast_S50000_S50000x1_0)) : (⟨S50000, .f32⟩ : BufTy).Contents (Elt F) → (⟨S50000x1, .f32⟩ : BufTy).Contents (Elt F)),
    unary main_call2_v8 main_call2_v9 ((Host.log) : (⟨S50000x1, .f32⟩ : BufTy).Contents (Elt F) → (⟨S50000x1, .f32⟩ : BufTy).Contents (Elt F)),
    unary main_call2_v9 main_call2_v10 (((broadcastInDim S50000x40 ![0, 1] bcast_S50000x1_S50000x40_0_1)) : (⟨S50000x1, .f32⟩ : BufTy).Contents (Elt F) → (⟨S50000x40, .f32⟩ : BufTy).Contents (Elt F)),
    binary main_call2_v5 main_call2_v10 main_v65 ((subf) : (⟨S50000x40, .f32⟩ : BufTy).Contents (Elt F) → (⟨S50000x40, .f32⟩ : BufTy).Contents (Elt F) → (⟨S50000x40, .f32⟩ : BufTy).Contents (Elt F)) ]

theorem ops_eq : (ops : List (HloOp τ sig (Elt F))) = opsH ++ (opsT1 ++ (opsT2 ++ (opsT3 ++ (opsT4 ++ (opsT5a ++ opsT5b))))) := rfl

/-! ## What each piece leaves alone -/

theorem h_keep_arg0 (V : Valuation τ sig (Elt F)) : after opsH V (Proc.devRef .tc main_arg0) = V (Proc.devRef .tc main_arg0) := by
  simp only [opsH]
  after_results_simp
theorem h_keep_arg2 (V : Valuation τ sig (Elt F)) : after opsH V (Proc.devRef .tc main_arg2) = V (Proc.devRef .tc main_arg2) := by
  simp only [opsH]
  after_results_simp
theorem h_keep_arg3 (V : Valuation τ sig (Elt F)) : after opsH V (Proc.devRef .tc main_arg3) = V (Proc.devRef .tc main_arg3) := by
  simp only [opsH]
  after_results_simp
theorem h_keep_arg4 (V : Valuation τ sig (Elt F)) : after opsH V (Proc.devRef .tc main_arg4) = V (Proc.devRef .tc main_arg4) := by
  simp only [opsH]
  after_results_simp
theorem h_keep_arg5 (V : Valuation τ sig (Elt F)) : after opsH V (Proc.devRef .tc main_arg5) = V (Proc.devRef .tc main_arg5) := by
  simp only [opsH]
  after_results_simp

theorem t1_keep_v5 (V : Valuation τ sig (Elt F)) : after opsT1 V (Proc.devRef .tc main_v5) = V (Proc.devRef .tc main_v5) := by
  simp only [opsT1]
  after_results_simp
theorem t1_keep_v6 (V : Valuation τ sig (Elt F)) : after opsT1 V (Proc.devRef .tc main_v6) = V (Proc.devRef .tc main_v6) := by
  simp only [opsT1]
  after_results_simp
theorem t1_keep_arg0 (V : Valuation τ sig (Elt F)) : after opsT1 V (Proc.devRef .tc main_arg0) = V (Proc.devRef .tc main_arg0) := by
  simp only [opsT1]
  after_results_simp
theorem t1_keep_arg2 (V : Valuation τ sig (Elt F)) : after opsT1 V (Proc.devRef .tc main_arg2) = V (Proc.devRef .tc main_arg2) := by
  simp only [opsT1]
  after_results_simp
theorem t1_keep_arg3 (V : Valuation τ sig (Elt F)) : after opsT1 V (Proc.devRef .tc main_arg3) = V (Proc.devRef .tc main_arg3) := by
  simp only [opsT1]
  after_results_simp
theorem t1_keep_arg4 (V : Valuation τ sig (Elt F)) : after opsT1 V (Proc.devRef .tc main_arg4) = V (Proc.devRef .tc main_arg4) := by
  simp only [opsT1]
  after_results_simp
theorem t1_keep_arg5 (V : Valuation τ sig (Elt F)) : after opsT1 V (Proc.devRef .tc main_arg5) = V (Proc.devRef .tc main_arg5) := by
  simp only [opsT1]
  after_results_simp

theorem t2_keep_v5 (V : Valuation τ sig (Elt F)) : after opsT2 V (Proc.devRef .tc main_v5) = V (Proc.devRef .tc main_v5) := by
  simp only [opsT2]
  after_results_simp
theorem t2_keep_v6 (V : Valuation τ sig (Elt F)) : after opsT2 V (Proc.devRef .tc main_v6) = V (Proc.devRef .tc main_v6) := by
  simp only [opsT2]
  after_results_simp
theorem t2_keep_v29 (V : Valuation τ sig (Elt F)) : after opsT2 V (Proc.devRef .tc main_v29) = V (Proc.devRef .tc main_v29) := by
  simp only [opsT2]
  after_results_simp
theorem t2_keep_arg3 (V : Valuation τ sig (Elt F)) : after opsT2 V (Proc.devRef .tc main_arg3) = V (Proc.devRef .tc main_arg3) := by
  simp only [opsT2]
  after_results_simp
theorem t2_keep_arg4 (V : Valuation τ sig (Elt F)) : after opsT2 V (Proc.devRef .tc main_arg4) = V (Proc.devRef .tc main_arg4) := by
  simp only [opsT2]
  after_results_simp
theorem t2_keep_arg5 (V : Valuation τ sig (Elt F)) : after opsT2 V (Proc.devRef .tc main_arg5) = V (Proc.devRef .tc main_arg5) := by
  simp only [opsT2]
  after_results_simp

theorem t3_keep_v5 (V : Valuation τ sig (Elt F)) : after opsT3 V (Proc.devRef .tc main_v5) = V (Proc.devRef .tc main_v5) := by
  simp only [opsT3]
  after_results_simp
theorem t3_keep_v6 (V : Valuation τ sig (Elt F)) : after opsT3 V (Proc.devRef .tc main_v6) = V (Proc.devRef .tc main_v6) := by
  simp only [opsT3]
  after_results_simp
theorem t3_keep_v29 (V : Valuation τ sig (Elt F)) : after opsT3 V (Proc.devRef .tc main_v29) = V (Proc.devRef .tc main_v29) := by
  simp only [opsT3]
  after_results_simp
theorem t3_keep_arg5 (V : Valuation τ sig (Elt F)) : after opsT3 V (Proc.devRef .tc main_arg5) = V (Proc.devRef .tc main_arg5) := by
  simp only [opsT3]
  after_results_simp

theorem t4_keep_arg5 (V : Valuation τ sig (Elt F)) : after opsT4 V (Proc.devRef .tc main_arg5) = V (Proc.devRef .tc main_arg5) := by
  simp only [opsT4]
  after_results_simp

/-! ## What each piece leaves -/

theorem h_v5 (V : Valuation τ sig (Elt F)) :
    after opsH V (Proc.devRef .tc main_v5) = val_main_v5 (F := F) (V (Proc.devRef .tc main_arg1)) := by
  simp only [opsH]
  after_results
  all_goals rfl
theorem h_v6 (V : Valuation τ sig (Elt F)) :
    after opsH V (Proc.devRef .tc main_v6) = val_main_v6 (F := F) (V (Proc.devRef .tc main_arg1)) := by
  simp only [opsH]
  after_results
  all_goals rfl

set_option maxHeartbeats 4000000 in
theorem t1_v29 (V : Valuation τ sig (Elt F)) (x1 : (⟨S2x800000, .i32⟩ : BufTy).Contents (Elt F))
    (h5 : V (Proc.devRef .tc main_v5) = val_main_v5 (F := F) x1) (h6 : V (Proc.devRef .tc main_v6) = val_main_v6 (F := F) x1) :
    after opsT1 V (Proc.devRef .tc main_v29) = val_main_v29 (F := F) x1 := by
  simp only [opsT1]
  after_results_simp
  simp only [h5, h6]
  all_goals rfl

set_option maxHeartbeats 4000000 in
theorem t2_v43 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F))
    (h5 : V (Proc.devRef .tc main_v5) = val_main_v5 (F := F) x1) (h6 : V (Proc.devRef .tc main_v6) = val_main_v6 (F := F) x1)
    (h29 : V (Proc.devRef .tc main_v29) = val_main_v29 (F := F) x1) (h0 : V (Proc.devRef .tc main_arg0) = x0) (h2 : V (Proc.devRef .tc main_arg2) = x2) :
    after opsT2 V (Proc.devRef .tc main_v43) = val_main_v43 (F := F) x0 x1 x2 := by
  simp only [opsT2]
  after_results_simp
  simp only [h5, h6, h29, h0, h2]
  all_goals rfl

set_option maxHeartbeats 4000000 in
theorem t3_v48 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F))
    (h43 : V (Proc.devRef .tc main_v43) = val_main_v43 (F := F) x0 x1 x2) (h3 : V (Proc.devRef .tc main_arg3) = x3) (h4 : V (Proc.devRef .tc main_arg4) = x4) :
    after opsT3 V (Proc.devRef .tc main_v48) = val_main_v48 (F := F) x0 x1 x2 x3 x4 := by
  simp only [opsT3]
  after_results_simp
  simp only [h43, h3, h4]
  all_goals rfl

set_option maxHeartbeats 4000000 in
theorem t4_v61 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F))
    (h48 : V (Proc.devRef .tc main_v48) = val_main_v48 (F := F) x0 x1 x2 x3 x4)
    (h5 : V (Proc.devRef .tc main_v5) = val_main_v5 (F := F) x1) (h6 : V (Proc.devRef .tc main_v6) = val_main_v6 (F := F) x1)
    (h29 : V (Proc.devRef .tc main_v29) = val_main_v29 (F := F) x1) :
    after opsT4 V (Proc.devRef .tc main_v61) = val_main_v61 (F := F) x0 x1 x2 x3 x4 := by
  simp only [opsT4]
  after_results_simp
  simp only [h48, h5, h6, h29]
  all_goals rfl

/-- The typed references of the row-maximum operation are its buffers at their own types: each transport is the identity. -/
theorem reduceMax_casts (Z : (⟨S50000x40, .f32⟩ : BufTy).Contents (Elt F)) (C : (⟨S_, .f32⟩ : BufTy).Contents (Elt F)) :
    (TRef.of (T := ⟨S50000, .f32⟩) main_call2_v0).toBuf
        (Host.reduce FloatOps.maximumf ((TRef.of (T := ⟨S50000x40, .f32⟩) main_v64).ofBuf Z)
          ((TRef.of (T := ⟨S_, .f32⟩) main_call2_cst).ofBuf C) reducesTo_S50000x40_S50000_d1 h_S_)
      = Host.reduce FloatOps.maximumf Z C reducesTo_S50000x40_S50000_d1 h_S_ := by
  have s1 : ∀ W : (⟨S50000, .f32⟩ : BufTy).Contents (Elt F), (TRef.of (T := ⟨S50000, .f32⟩) main_call2_v0).toBuf W = W := fun _ => rfl
  have s2 : (TRef.of (T := ⟨S50000x40, .f32⟩) main_v64).ofBuf Z = Z := rfl
  have s3 : (TRef.of (T := ⟨S_, .f32⟩) main_call2_cst).ofBuf C = C := rfl
  rw [s2, s3]
  exact s1 _

set_option maxHeartbeats 4000000 in
theorem t5a_v64 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F))
    (h61 : V (Proc.devRef .tc main_v61) = val_main_v61 (F := F) x0 x1 x2 x3 x4) (h5 : V (Proc.devRef .tc main_arg5) = x5) :
    after opsT5a V (Proc.devRef .tc main_v64) = val_main_v64 (F := F) x0 x1 x2 x3 x4 x5 := by
  simp only [opsT5a]
  after_results_simp
  simp only [h61, h5]
  all_goals rfl

set_option maxHeartbeats 4000000 in
theorem t5a_max (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F))
    (h61 : V (Proc.devRef .tc main_v61) = val_main_v61 (F := F) x0 x1 x2 x3 x4) (h5 : V (Proc.devRef .tc main_arg5) = x5) :
    after opsT5a V (Proc.devRef .tc main_call2_v0) = val_main_call2_v0 (F := F) x0 x1 x2 x3 x4 x5 := by
  simp only [opsT5a]
  after_results_simp
  simp only [h61, h5]
  refine (reduceMax_casts _ _).trans ?_
  rfl

set_option maxHeartbeats 4000000 in
theorem t5b_v65 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F))
    (h64 : V (Proc.devRef .tc main_v64) = val_main_v64 (F := F) x0 x1 x2 x3 x4 x5)
    (hmax : V (Proc.devRef .tc main_call2_v0) = val_main_call2_v0 (F := F) x0 x1 x2 x3 x4 x5) :
    after opsT5b V (Proc.devRef .tc main_v65) = val_main_v65 (F := F) x0 x1 x2 x3 x4 x5 := by
  simp only [opsT5b]
  after_results_simp
  simp only [h64, hmax]
  all_goals rfl

/-! ## The whole line -/

/-- The pieces one after the other, from any contents: the result stage of the contents' arguments. -/
theorem value_of (V0 : Valuation τ sig (Elt F)) :
    after opsT5b (after opsT5a (after opsT4 (after opsT3 (after opsT2 (after opsT1 (after opsH V0)))))) (Proc.devRef .tc main_v65)
      = val_main_v65 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  generalize hV1 : after opsH V0 = V1
  have e5 : V1 (Proc.devRef .tc main_v5) = val_main_v5 (F := F) (V0 (Proc.devRef .tc main_arg1)) := by rw [← hV1]; exact h_v5 V0
  have e6 : V1 (Proc.devRef .tc main_v6) = val_main_v6 (F := F) (V0 (Proc.devRef .tc main_arg1)) := by rw [← hV1]; exact h_v6 V0
  have a0 : V1 (Proc.devRef .tc main_arg0) = V0 (Proc.devRef .tc main_arg0) := by rw [← hV1]; exact h_keep_arg0 V0
  have a2 : V1 (Proc.devRef .tc main_arg2) = V0 (Proc.devRef .tc main_arg2) := by rw [← hV1]; exact h_keep_arg2 V0
  have a3 : V1 (Proc.devRef .tc main_arg3) = V0 (Proc.devRef .tc main_arg3) := by rw [← hV1]; exact h_keep_arg3 V0
  have a4 : V1 (Proc.devRef .tc main_arg4) = V0 (Proc.devRef .tc main_arg4) := by rw [← hV1]; exact h_keep_arg4 V0
  have a5 : V1 (Proc.devRef .tc main_arg5) = V0 (Proc.devRef .tc main_arg5) := by rw [← hV1]; exact h_keep_arg5 V0
  generalize hV2 : after opsT1 V1 = V2
  have f29 : V2 (Proc.devRef .tc main_v29) = val_main_v29 (F := F) (V0 (Proc.devRef .tc main_arg1)) := by rw [← hV2]; exact t1_v29 V1 _ e5 e6
  have f5 : V2 (Proc.devRef .tc main_v5) = val_main_v5 (F := F) (V0 (Proc.devRef .tc main_arg1)) := by rw [← hV2, t1_keep_v5]; exact e5
  have f6 : V2 (Proc.devRef .tc main_v6) = val_main_v6 (F := F) (V0 (Proc.devRef .tc main_arg1)) := by rw [← hV2, t1_keep_v6]; exact e6
  have b0 : V2 (Proc.devRef .tc main_arg0) = V0 (Proc.devRef .tc main_arg0) := by rw [← hV2, t1_keep_arg0]; exact a0
  have b2 : V2 (Proc.devRef .tc main_arg2) = V0 (Proc.devRef .tc main_arg2) := by rw [← hV2, t1_keep_arg2]; exact a2
  have b3 : V2 (Proc.devRef .tc main_arg3) = V0 (Proc.devRef .tc main_arg3) := by rw [← hV2, t1_keep_arg3]; exact a3
  have b4 : V2 (Proc.devRef .tc main_arg4) = V0 (Proc.devRef .tc main_arg4) := by rw [← hV2, t1_keep_arg4]; exact a4
  have b5 : V2 (Proc.devRef .tc main_arg5) = V0 (Proc.devRef .tc main_arg5) := by rw [← hV2, t1_keep_arg5]; exact a5
  generalize hV3 : after opsT2 V2 = V3
  have g43 : V3 (Proc.devRef .tc main_v43) = val_main_v43 (F := F) (V0 (Proc.devRef .tc main_arg0)) (V0 (Proc.devRef .tc main_arg1)) (V0 (Proc.devRef .tc main_arg2)) := by
    rw [← hV3]; exact t2_v43 V2 _ _ _ f5 f6 f29 b0 b2
  have g5 : V3 (Proc.devRef .tc main_v5) = val_main_v5 (F := F) (V0 (Proc.devRef .tc main_arg1)) := by rw [← hV3, t2_keep_v5]; exact f5
  have g6 : V3 (Proc.devRef .tc main_v6) = val_main_v6 (F := F) (V0 (Proc.devRef .tc main_arg1)) := by rw [← hV3, t2_keep_v6]; exact f6
  have g29 : V3 (Proc.devRef .tc main_v29) = val_main_v29 (F := F) (V0 (Proc.devRef .tc main_arg1)) := by rw [← hV3, t2_keep_v29]; exact f29
  have c3 : V3 (Proc.devRef .tc main_arg3) = V0 (Proc.devRef .tc main_arg3) := by rw [← hV3, t2_keep_arg3]; exact b3
  have c4 : V3 (Proc.devRef .tc main_arg4) = V0 (Proc.devRef .tc main_arg4) := by rw [← hV3, t2_keep_arg4]; exact b4
  have c5 : V3 (Proc.devRef .tc main_arg5) = V0 (Proc.devRef .tc main_arg5) := by rw [← hV3, t2_keep_arg5]; exact b5
  generalize hV4 : after opsT3 V3 = V4
  have k48 : V4 (Proc.devRef .tc main_v48) = val_main_v48 (F := F) (V0 (Proc.devRef .tc main_arg0)) (V0 (Proc.devRef .tc main_arg1)) (V0 (Proc.devRef .tc main_arg2)) (V0 (Proc.devRef .tc main_arg3)) (V0 (Proc.devRef .tc main_arg4)) := by
    rw [← hV4]; exact t3_v48 V3 _ _ _ _ _ g43 c3 c4
  have k5 : V4 (Proc.devRef .tc main_v5) = val_main_v5 (F := F) (V0 (Proc.devRef .tc main_arg1)) := by rw [← hV4, t3_keep_v5]; exact g5
  have k6 : V4 (Proc.devRef .tc main_v6) = val_main_v6 (F := F) (V0 (Proc.devRef .tc main_arg1)) := by rw [← hV4, t3_keep_v6]; exact g6
  have k29 : V4 (Proc.devRef .tc main_v29) = val_main_v29 (F := F) (V0 (Proc.devRef .tc main_arg1)) := by rw [← hV4, t3_keep_v29]; exact g29
  have d5 : V4 (Proc.devRef .tc main_arg5) = V0 (Proc.devRef .tc main_arg5) := by rw [← hV4, t3_keep_arg5]; exact c5
  generalize hV5 : after opsT4 V4 = V5
  have l61 : V5 (Proc.devRef .tc main_v61) = val_main_v61 (F := F) (V0 (Proc.devRef .tc main_arg0)) (V0 (Proc.devRef .tc main_arg1)) (V0 (Proc.devRef .tc main_arg2)) (V0 (Proc.devRef .tc main_arg3)) (V0 (Proc.devRef .tc main_arg4)) := by
    rw [← hV5]; exact t4_v61 V4 _ _ _ _ _ k48 k5 k6 k29
  have e5' : V5 (Proc.devRef .tc main_arg5) = V0 (Proc.devRef .tc main_arg5) := by rw [← hV5, t4_keep_arg5]; exact d5
  generalize hV6 : after opsT5a V5 = V6
  have m64 : V6 (Proc.devRef .tc main_v64) = val_main_v64 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
    rw [← hV6]; exact t5a_v64 V5 _ _ _ _ _ _ l61 e5'
  have mmax : V6 (Proc.devRef .tc main_call2_v0) = val_main_call2_v0 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
    rw [← hV6]; exact t5a_max V5 _ _ _ _ _ _ l61 e5'
  exact t5b_v65 V6 _ _ _ _ _ _ m64 mmax

/-- The whole line's result, from the launch contents. -/
theorem value (m : (ℓ : Loc nD τ sig) → Buf (Elt F) ℓ) (c : Dev nD) :
    after ops (launchContents m c) (Proc.devRef .tc main_v65)
      = val_main_v65 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [ops_eq, after_append, after_append, after_append, after_append, after_append, after_append]
  exact value_of (launchContents m c)

set_option maxRecDepth 8192 in
set_option maxHeartbeats 40000000 in
/-- On every device, from any memory with zero counters: every weakly fair execution of @main terminates with the result
    at the result stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
          = val_main_v65 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.lean ====
/-
  A two-layer graph convolution over 50000 nodes and 800000 edges: kernel program against reference, over the
  extended reals.

  Both programs append a self loop to every node, count each node's in-edges (a scatter-add of ones), take the
  reciprocal square root where the count is positive, and weigh edge (s, d) by the product of its end nodes' weights.
  A layer transforms the node features by a matrix product, gathers the transformed rows along the edges' sources,
  scales them by the edge weights, sums them into the edges' destinations, and adds a bias; the first layer then takes
  the positive part, the second the row-wise log-softmax.

  The kernel program computes the two matrix products, the bias with positive part and the bias with log-softmax in
  four pallas_calls, each over ten blocks of 5000 rows (the products on operands narrowed to bf16, which is the identity
  here); everything else is the reference's own host operations. So the two results are one function of the
  arguments: a product taken block of rows by block of rows is the whole product (the sum over the contracted index at
  an entry reads one row of the left operand); the bias row spread over a block's rows, a maximum with zero, and, for
  the log-softmax, a row's maximum from −∞, the exponentials' sum and its logarithm read each row alone, so the blocks
  are the blocks of the whole-array layer functions; and the reference's own forms of these (a dot product with the
  plain dimension numbers, broadcasts of the bias, reduces from −∞ and from zero, one more maximum with −∞) are the
  same functions. No law that needs finite values is used: sums and products are never regrouped.

  The three frames are the generated ones (the reference's its run with the result dropped); nothing was rewritten
  by the ideal pass, so the idealization claim is trivial.
-/
import proofs.«167320_j6236292514024_1_alg».proof.Defs
import proofs.«167320_j6236292514024_1_alg».proof.Proof.Gen.Kernel
import proofs.«167320_j6236292514024_1_alg».proof.Proof.Gen.Kernel.Skeleton
import proofs.«167320_j6236292514024_1_alg».proof.Proof.Gen.Kernel.Launch
import proofs.«167320_j6236292514024_1_alg».proof.Proof.Gen.Kernel.Points
import proofs.«167320_j6236292514024_1_alg».proof.Proof.Gen.Kernel.Frame
import proofs.«167320_j6236292514024_1_alg».proof.Proof.Gen.KernelIdeal
import proofs.«167320_j6236292514024_1_alg».proof.Proof.Gen.KernelIdeal.Skeleton
import proofs.«167320_j6236292514024_1_alg».proof.Proof.Gen.KernelIdeal.Launch
import proofs.«167320_j6236292514024_1_alg».proof.Proof.Gen.KernelIdeal.Points
import proofs.«167320_j6236292514024_1_alg».proof.Proof.Gen.KernelIdeal.Frame
import proofs.«167320_j6236292514024_1_alg».proof.Proof.Gen.ReferenceIdeal
import proofs.«167320_j6236292514024_1_alg».proof.Proof.Gen.Pre_finite_inputs
import proofs.«167320_j6236292514024_1_alg».proof.Proof.KernelValue
import proofs.«167320_j6236292514024_1_alg».proof.Proof.RefRunValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunValue.run (F := Ideal) m ρ)

theorem preserves : Cert.preserves_Kernel_KernelIdeal := trivial

/-- Both programs end with the result array at the reference's result stage of the kernel's arguments: the kernel program
    by the walk through its boundaries, the reference by its run at arguments that agree with the kernel's. -/
theorem algebraic : Cert.algebraic_KernelIdeal_ReferenceIdeal := by
  intro m ρ m' ρ' _ hagree
  refine ⟨fun c => Cert.ReferenceIdeal.ReadP.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.RunValue.run (F := Ideal) m' ρ')
    rw [(hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
